-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16777216 : Shape := ⟨2, ![1, 16777216]⟩
abbrev S_ : Shape := ⟨0, ![]⟩

class Facts : Prop where
  bcast_S_S1x16777216 : S_.BroadcastsInDim S1x16777216 (![] : Fin 0 → Fin S1x16777216.rank)
  reducesTo_S1x16777216_S_d0_1 : S1x16777216.ReducesTo [0, 1] S_
  h_S_ : 0 < S_.numel

variable [Facts]

def fn_part1 {F : FTy → Type} [FloatOps F] (main_v13 : IVec S_ 1) (main_v16 : IVec S1x16777216 1) : IVec S_ 1 :=
  let main_c_5 : IVec S_ 1 := constantI S_ 1 1#1
  let main_v17 : IVec S_ 1 := (fun x v => Host.reduce IntOp.andi x v reducesTo_S1x16777216_S_d0_1 h_S_) main_v16 main_c_5
  let main_v18 : IVec S_ 1 := andi main_v13 main_v17
  main_v18

def fn {F : FTy → Type} [FloatOps F] (main_arg0 : FVec F S1x16777216 .f32) (main_arg1 : FVec F S1x16777216 .f32) (main_arg2 : FVec F S1x16777216 .f32) (main_arg3 : FVec F S1x16777216 .f32) : IVec S_ 1 :=
  let main_v0 : FVec F S1x16777216 .f32 := Host.absf main_arg0
  let main_cst : FVec F S_ .f32 := constant S_ .f32 0x7F800000#32
  let main_v1 : FVec F S1x16777216 .f32 := broadcastInDim S1x16777216 ![] bcast_S_S1x16777216 main_cst
  let main_v2 : IVec S1x16777216 1 := cmpf .olt main_v0 main_v1
  let main_c : IVec S_ 1 := constantI S_ 1 1#1
  let main_v3 : IVec S_ 1 := (fun x v => Host.reduce IntOp.andi x v reducesTo_S1x16777216_S_d0_1 h_S_) main_v2 main_c
  let main_v4 : FVec F S1x16777216 .f32 := Host.absf main_arg1
  let main_cst_0 : FVec F S_ .f32 := constant S_ .f32 0x7F800000#32
  let main_v5 : FVec F S1x16777216 .f32 := broadcastInDim S1x16777216 ![] bcast_S_S1x16777216 main_cst_0
  let main_v6 : IVec S1x16777216 1 := cmpf .olt main_v4 main_v5
  let main_c_1 : IVec S_ 1 := constantI S_ 1 1#1
  let main_v7 : IVec S_ 1 := (fun x v => Host.reduce IntOp.andi x v reducesTo_S1x16777216_S_d0_1 h_S_) main_v6 main_c_1
  let main_v8 : IVec S_ 1 := andi main_v3 main_v7
  let main_v9 : FVec F S1x16777216 .f32 := Host.absf main_arg2
  let main_cst_2 : FVec F S_ .f32 := constant S_ .f32 0x7F800000#32
  let main_v10 : FVec F S1x16777216 .f32 := broadcastInDim S1x16777216 ![] bcast_S_S1x16777216 main_cst_2
  let main_v11 : IVec S1x16777216 1 := cmpf .olt main_v9 main_v10
  let main_c_3 : IVec S_ 1 := constantI S_ 1 1#1
  let main_v12 : IVec S_ 1 := (fun x v => Host.reduce IntOp.andi x v reducesTo_S1x16777216_S_d0_1 h_S_) main_v11 main_c_3
  let main_v13 : IVec S_ 1 := andi main_v8 main_v12
  let main_v14 : FVec F S1x16777216 .f32 := Host.absf main_arg3
  let main_cst_4 : FVec F S_ .f32 := constant S_ .f32 0x7F800000#32
  let main_v15 : FVec F S1x16777216 .f32 := broadcastInDim S1x16777216 ![] bcast_S_S1x16777216 main_cst_4
  let main_v16 : IVec S1x16777216 1 := cmpf .olt main_v14 main_v15
  fn_part1 (F := F) main_v13 main_v16
-- ==== Kernel.lean ====
abbrev S1x16777216 : Shape := ⟨2, ![1, 16777216]⟩
abbrev S131072x128 : Shape := ⟨2, ![131072, 128]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S1x6 : Shape := ⟨2, ![1, 6]⟩
abbrev S1x16777222 : Shape := ⟨2, ![1, 16777222]⟩

abbrev nBuf : Space → Nat
  | .hbm => 16
  | .vmem => 14
  | .smem => 0
  | _ => 0

abbrev bufTy : (tb : Table) → Fin (tcTables nBuf tb) → BufTy
  | .hbm, ⟨0, _⟩ => ⟨S1x16777216, .f32⟩
  | .hbm, ⟨1, _⟩ => ⟨S1x16777216, .f32⟩
  | .hbm, ⟨2, _⟩ => ⟨S1x16777216, .f32⟩
  | .hbm, ⟨3, _⟩ => ⟨S1x16777216, .f32⟩
  | .hbm, ⟨4, _⟩ => ⟨S131072x128, .f32⟩
  | .hbm, ⟨5, _⟩ => ⟨S131072x128, .f32⟩
  | .hbm, ⟨6, _⟩ => ⟨S131072x128, .f32⟩
  | .hbm, ⟨7, _⟩ => ⟨S131072x128, .f32⟩
  | .hbm, ⟨8, _⟩ => ⟨S1x1, .f32⟩
  | .hbm, ⟨9, _⟩ => ⟨S1x1, .f32⟩
  | .hbm, ⟨10, _⟩ => ⟨S1x1, .f32⟩
  | .hbm, ⟨11, _⟩ => ⟨S1x1, .f32⟩
  | .hbm, ⟨12, _⟩ => ⟨S1x1, .f32⟩
  | .hbm, ⟨13, _⟩ => ⟨S1x1, .f32⟩
  | .hbm, ⟨14, _⟩ => ⟨S1x6, .f32⟩
  | .hbm, ⟨15, _⟩ => ⟨S1x16777222, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | _, _ => ⟨S1x16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_v4_5 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  shapeCasts_S1x16777216_S131072x128 : S1x16777216.ShapeCasts S131072x128
  inb_S1x1_S1x1_0_0 : ∀ a, (![0, 0] : Fin 2 → Nat) a + S1x1.size a ≤ S1x1.size a
  h_S1x1 : 0 < S1x1.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S1x1_S1x1 : S1x1.ShapeCasts S1x1
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  concatenates_S1x1_S1x1_S1x1_S1x1_S1x1_S1x1_S1x6_d1 : Shape.Concatenates [S1x1, S1x1, S1x1, S1x1, S1x1, S1x1] S1x6 1
  concatenates_S1x16777216_S1x6_S1x16777222_d1 : Shape.Concatenates [S1x16777216, S1x6] S1x16777222 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S131072x128.size a
  hwx0_2 : ∀ i : grid0.Coords, EltTy.bits .f32 = 32 ∨ (Rect.block (s := S131072x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S131072x128.size a
  hwx0_3 : ∀ i : grid0.Coords, EltTy.bits .f32 = 32 ∨ (Rect.block (s := S131072x128) S4096x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S1x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_3) S1x1.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4_4) S1x1.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_5) S1x1.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1x16777216 : Shape := ⟨2, ![1, 16777216]⟩
abbrev S6 : Shape := ⟨1, ![6]⟩
abbrev S1x67108864 : Shape := ⟨2, ![1, 67108864]⟩
abbrev S1x4x16777216 : Shape := ⟨3, ![1, 4, 16777216]⟩
abbrev S1x4x4 : Shape := ⟨3, ![1, 4, 4]⟩
abbrev S_ : Shape := ⟨0, ![]⟩
abbrev S6x1 : Shape := ⟨2, ![6, 1]⟩
abbrev S6x2 : Shape := ⟨2, ![6, 2]⟩
abbrev S1x6 : Shape := ⟨2, ![1, 6]⟩
abbrev S1x16777222 : Shape := ⟨2, ![1, 16777222]⟩

abbrev nBuf : Space → Nat
  | .hbm => 24
  | .vmem => 0
  | .smem => 0
  | _ => 0

abbrev bufTy : (tb : Table) → Fin (tcTables nBuf tb) → BufTy
  | .hbm, ⟨0, _⟩ => ⟨S1x16777216, .f32⟩
  | .hbm, ⟨1, _⟩ => ⟨S1x16777216, .f32⟩
  | .hbm, ⟨2, _⟩ => ⟨S1x16777216, .f32⟩
  | .hbm, ⟨3, _⟩ => ⟨S1x16777216, .f32⟩
  | .hbm, ⟨4, _⟩ => ⟨S6, .i32⟩
  | .hbm, ⟨5, _⟩ => ⟨S6, .i1⟩
  | .hbm, ⟨6, _⟩ => ⟨S6, .i32⟩
  | .hbm, ⟨7, _⟩ => ⟨S6, .i1⟩
  | .hbm, ⟨8, _⟩ => ⟨S1x67108864, .f32⟩
  | .hbm, ⟨9, _⟩ => ⟨S1x4x16777216, .f32⟩
  | .hbm, ⟨10, _⟩ => ⟨S1x4x4, .f32⟩
  | .hbm, ⟨11, _⟩ => ⟨S_, .i32⟩
  | .hbm, ⟨12, _⟩ => ⟨S6, .i32⟩
  | .hbm, ⟨13, _⟩ => ⟨S6, .i32⟩
  | .hbm, ⟨14, _⟩ => ⟨S6, .i32⟩
  | .hbm, ⟨15, _⟩ => ⟨S_, .i32⟩
  | .hbm, ⟨16, _⟩ => ⟨S6, .i32⟩
  | .hbm, ⟨17, _⟩ => ⟨S6, .i32⟩
  | .hbm, ⟨18, _⟩ => ⟨S6, .i32⟩
  | .hbm, ⟨19, _⟩ => ⟨S6x1, .i32⟩
  | .hbm, ⟨20, _⟩ => ⟨S6x1, .i32⟩
  | .hbm, ⟨21, _⟩ => ⟨S6x2, .i32⟩
  | .hbm, ⟨22, _⟩ => ⟨S1x6, .f32⟩
  | .hbm, ⟨23, _⟩ => ⟨S1x16777222, .f32⟩
  | _, _ => ⟨S1x16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_3 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  concatenates_S1x16777216_S1x16777216_S1x16777216_S1x16777216_S1x67108864_d1 : Shape.Concatenates [S1x16777216, S1x16777216, S1x16777216, S1x16777216] S1x67108864 1
  shapeCasts_S1x67108864_S1x4x16777216 : S1x67108864.ShapeCasts S1x4x16777216
  bcast_S_S6 : S_.BroadcastsInDim S6 (![] : Fin 0 → Fin S6.rank)
  bcast_S6_S6x1_0 : S6.BroadcastsInDim S6x1 (![0] : Fin 1 → Fin S6x1.rank)
  concatenates_S6x1_S6x1_S6x2_d1 : Shape.Concatenates [S6x1, S6x1] S6x2 1
  concatenates_S1x16777216_S1x6_S1x16777222_d1 : Shape.Concatenates [S1x16777216, S1x6] S1x16777222 1
  dot_S1x4x16777216_S1x4x16777216_S1x4x4_2_2_1_1_0_0_wf : DotDims.WF S1x4x16777216 S1x4x16777216 S1x4x4 [2] [2] [1] [1] [0] [0]
  gather_S1x4x4_S6x2_S1x6_0_12_n_n_12_1_111_wf : GatherDims.WF S1x4x4 S6x2 S1x6 [0] [1, 2] [] [1, 2] [] 1 ![1, 1, 1]

variable [Facts₀]

def dot_S1x4x16777216_S1x4x16777216_S1x4x4_2_2_1_1_0_0 : DotDims S1x4x16777216 S1x4x16777216 S1x4x4 where
  lhsContracting := [2]
  rhsContracting := [2]
  lhsNonContracting := [1]
  rhsNonContracting := [1]
  lhsBatch := [0]
  rhsBatch := [0]
  wf := dot_S1x4x16777216_S1x4x16777216_S1x4x4_2_2_1_1_0_0_wf
def gather_S1x4x4_S6x2_S1x6_0_12_n_n_12_1_111 : GatherDims S1x4x4 S6x2 S1x6 where
  offsetDims := [0]
  collapsedSliceDims := [1, 2]
  operandBatchingDims := []
  startIndicesBatchingDims := []
  startIndexMap := [1, 2]
  indexVectorDim := 1
  sliceSizes := ![1, 1, 1]
  wf := gather_S1x4x4_S6x2_S1x6_0_12_n_n_12_1_111_wf

class Facts : Prop extends Facts₀ where

variable [Facts]
-- ==== Proof.K.Kit.lean ====
/-
  The launch side of the kernel's frame: the buffer contents the region is entered with (the four
  argument rows re-laid as 131072 x 128 arrays), the program as host lines, the region, and two
  concatenations after it, the blocks the windows stage, and the one condition the body branches on
  (the grid position is the first).
-/
import proofs.«175682_j70781061038447_1_alg».proof.Proof.Gen.Kernel.Launch
import proofs.«175682_j70781061038447_1_alg».proof.Proof.Gen.Kernel.Skeleton
import proofs.«175682_j70781061038447_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffer contents of core `c` when the region is entered: the launch contents after the four re-layings. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the four re-layings, the region, then the two concatenations: it reduces to the region continued
    by the concatenations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The concatenations touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No re-laying writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No concatenation writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No re-laying writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No concatenation writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No re-laying writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No concatenation writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No re-laying writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No concatenation writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- A run to the library's frame post, read at the four argument arrays (which bypass the region and which no
    concatenation writes), is the frame claim. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(((h c).2 main_arg0 (Pipeline.mem_restRefs_of main_arg0 (by decide) (by decide))).trans (W_main_arg0 m dats c)),
     (((h c).2 main_arg1 (Pipeline.mem_restRefs_of main_arg1 (by decide) (by decide))).trans (W_main_arg1 m dats c)),
     (((h c).2 main_arg2 (Pipeline.mem_restRefs_of main_arg2 (by decide) (by decide))).trans (W_main_arg2 m dats c)),
     (((h c).2 main_arg3 (Pipeline.mem_restRefs_of main_arg3 (by decide) (by decide))).trans (W_main_arg3 m dats c))⟩) h

/-! ## The body's one condition -/

/-- The body's branch condition from the grid coordinate: the position is the first. -/
abbrev cond0_0 (i : grid0.Coords) : Prop := (Scalar.cmpi .ne (Scalar.extui (Scalar.cmpi .eq (BitVec.ofNat 32 (i 0).val) 0#32)) 0#32) = 1#1
/-- It holds at the first of the 32 points only. -/
theorem hcond0_0 : ∀ t : Fin cfg0.N, cond0_0 (grid0.coords t) ↔ t.val % 32 = 0 :=
  (by decide +kernel : ∀ t : Fin grid0.N, cond0_0 (grid0.coords t) ↔ t.val % 32 = 0)

/-! ## The staging memrefs the body is called with -/

/-- One staging buffer of output window 4, through which its contents are stated. -/
abbrev VO0_4 : View sig .tc .vmem S1x1 .f32 := (Memref.whole cc0_stg4_0 : Memref sig .tc .vmem S1x1 .f32).view
/-- One staging buffer of output window 5, through which its contents are stated. -/
abbrev VO0_5 : View sig .tc .vmem S1x1 .f32 := (Memref.whole cc0_stg5_0 : Memref sig .tc .vmem S1x1 .f32).view
/-- One staging buffer of output window 6, through which its contents are stated. -/
abbrev VO0_6 : View sig .tc .vmem S1x1 .f32 := (Memref.whole cc0_stg6_0 : Memref sig .tc .vmem S1x1 .f32).view
/-- One staging buffer of output window 7, through which its contents are stated. -/
abbrev VO0_7 : View sig .tc .vmem S1x1 .f32 := (Memref.whole cc0_stg7_0 : Memref sig .tc .vmem S1x1 .f32).view
/-- One staging buffer of output window 8, through which its contents are stated. -/
abbrev VO0_8 : View sig .tc .vmem S1x1 .f32 := (Memref.whole cc0_stg8_0 : Memref sig .tc .vmem S1x1 .f32).view
/-- One staging buffer of output window 9, through which its contents are stated. -/
abbrev VO0_9 : View sig .tc .vmem S1x1 .f32 := (Memref.whole cc0_stg9_0 : Memref sig .tc .vmem S1x1 .f32).view
abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1 .f32 := win0_9.stage (cfg0.slots t 9)
abbrev hs0_9 (t : Fin cfg0.N) : (ms0_9 t).IsWhole := hstage0_9 ((cfg0.slots t 9).cast nbuf0_9)

/-- No window is ever idle: every point loads every input and stores every output. -/
theorem liveAt0 : ∀ (w : Fin cfg0.W) (t : Fin cfg0.N), cfg0.idle w (grid0.coords t) = false := by decide +kernel

end Cert.Kernel.Hand

end
-- ==== Proof.K.RunA.lean ====
/-
  The body run whole at the first grid point (the branch that zeroes the six accumulators is taken):
  on whole staging buffers, the four input blocks at given contents, the six outputs' buffers at anything,
  the body runs to its end, hands the inputs back as they were and leaves each output's buffer with a
  list of stored pieces, which the run itself determines.
-/
import proofs.«175682_j70781061038447_1_alg».proof.Proof.K.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces each output's buffer ends with in this case, with the run that leaves them. -/
noncomputable def kernelRun0_A (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) :
    Σ' (L4 : List (View.Piece (Elt F) S1x1 .f32)) (L5 : List (View.Piece (Elt F) S1x1 .f32)) (L6 : List (View.Piece (Elt F) S1x1 .f32)) (L7 : List (View.Piece (Elt F) S1x1 .f32)) (L8 : List (View.Piece (Elt F) S1x1 .f32)), { L9 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0__pairwise_dots_kernel i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__pairwise_dots_kernel_eq_skeleton]; unfold cc0__pairwise_dots_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

end Cert.Kernel.Hand

end
-- ==== Proof.K.RunB.lean ====
/-
  The body run whole at a later grid point (the zeroing branch is skipped: each accumulator is read at its running value):
  on whole staging buffers, the four input blocks at given contents, the six outputs' buffers at their running contents,
  the body runs to its end, hands the inputs back as they were and leaves each output's buffer with a
  list of stored pieces, which the run itself determines.
-/
import proofs.«175682_j70781061038447_1_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces each output's buffer ends with in this case, with the run that leaves them. -/
noncomputable def kernelRun0_B (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) :
    Σ' (L4 : List (View.Piece (Elt F) S1x1 .f32)) (L5 : List (View.Piece (Elt F) S1x1 .f32)) (L6 : List (View.Piece (Elt F) S1x1 .f32)) (L7 : List (View.Piece (Elt F) S1x1 .f32)) (L8 : List (View.Piece (Elt F) S1x1 .f32)), { L9 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo4 ∗ owns (c : Thread nD τ) arg6 fullShare xo5 ∗ owns (c : Thread nD τ) arg7 fullShare xo6 ∗ owns (c : Thread nD τ) arg8 fullShare xo7 ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0__pairwise_dots_kernel i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__pairwise_dots_kernel_eq_skeleton]; unfold cc0__pairwise_dots_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

end Cert.Kernel.Hand

end
-- ==== Proof.K.Frame.lean ====
/-
  The kernel's frame and what its six accumulators hold point by point. At the first grid point the
  body zeroes each (1,1) accumulator and adds the block's pairwise product sum; at every later point
  it adds to what the point before left (the accumulators' buffers are written back only after the
  last point). From the two whole-body runs: what each output's buffer holds after each point, the
  proof data of the pipeline, the body obligation at every point, and the run of the whole program.
-/
import proofs.«175682_j70781061038447_1_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In this case the stores into output window 4's buffer cover it. -/
theorem cover0_A_4 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) (y : S1x1.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).1 S1x1.size (by sl_kernel_rfl) y

/-- What the case leaves in output window 4's buffer: its stored pieces read back. -/
def out0_A_4 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) : Vec F S1x1 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 arg10 harg10 hc0 x0 x1 x2 x3).1)

/-- In this case the stores into output window 5's buffer cover it. -/
theorem cover0_A_5 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) (y : S1x1.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.1 S1x1.size (by sl_kernel_rfl) y

/-- What the case leaves in output window 5's buffer: its stored pieces read back. -/
def out0_A_5 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) : Vec F S1x1 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 x0 x1 x2 x3).2.1)

/-- In this case the stores into output window 6's buffer cover it. -/
theorem cover0_A_6 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) (y : S1x1.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.2.1 S1x1.size (by sl_kernel_rfl) y

/-- What the case leaves in output window 6's buffer: its stored pieces read back. -/
def out0_A_6 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) : Vec F S1x1 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 hc0 x0 x1 x2 x3).2.2.1)

/-- In this case the stores into output window 7's buffer cover it. -/
theorem cover0_A_7 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) (y : S1x1.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.2.2.1 S1x1.size (by sl_kernel_rfl) y

/-- What the case leaves in output window 7's buffer: its stored pieces read back. -/
def out0_A_7 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) : Vec F S1x1 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 x0 x1 x2 x3).2.2.2.1)

/-- In this case the stores into output window 8's buffer cover it. -/
theorem cover0_A_8 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) (y : S1x1.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.2.2.2.1 S1x1.size (by sl_kernel_rfl) y

/-- What the case leaves in output window 8's buffer: its stored pieces read back. -/
def out0_A_8 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) : Vec F S1x1 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 hc0 x0 x1 x2 x3).2.2.2.2.1)

/-- In this case the stores into output window 9's buffer cover it. -/
theorem cover0_A_9 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) (y : S1x1.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.2.2.2.2.1 S1x1.size (by sl_kernel_rfl) y

/-- What the case leaves in output window 9's buffer: its stored pieces read back. -/
def out0_A_9 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) : Vec F S1x1 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 hc0 x0 x1 x2 x3).2.2.2.2.2.1)

/-- In this case the stores into output window 4's buffer cover it. -/
theorem cover0_B_4 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).1 S1x1.size (by sl_kernel_rfl) y

/-- What the case leaves in output window 4's buffer: its stored pieces read back. -/
def out0_B_4 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) : Vec F S1x1 .f32 :=
  VO0_4.read (Elt F) (VO0_4.writes (Elt F) VO0_4.junk (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).1)

/-- In this case the stores into output window 5's buffer cover it. -/
theorem cover0_B_5 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.1 S1x1.size (by sl_kernel_rfl) y

/-- What the case leaves in output window 5's buffer: its stored pieces read back. -/
def out0_B_5 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) : Vec F S1x1 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.1)

/-- In this case the stores into output window 6's buffer cover it. -/
theorem cover0_B_6 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.1 S1x1.size (by sl_kernel_rfl) y

/-- What the case leaves in output window 6's buffer: its stored pieces read back. -/
def out0_B_6 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) : Vec F S1x1 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.1)

/-- In this case the stores into output window 7's buffer cover it. -/
theorem cover0_B_7 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.2.1 S1x1.size (by sl_kernel_rfl) y

/-- What the case leaves in output window 7's buffer: its stored pieces read back. -/
def out0_B_7 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) : Vec F S1x1 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.2.1)

/-- In this case the stores into output window 8's buffer cover it. -/
theorem cover0_B_8 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.2.2.1 S1x1.size (by sl_kernel_rfl) y

/-- What the case leaves in output window 8's buffer: its stored pieces read back. -/
def out0_B_8 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) : Vec F S1x1 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.2.2.1)

/-- In this case the stores into output window 9's buffer cover it. -/
theorem cover0_B_9 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.2.2.2.1 S1x1.size (by sl_kernel_rfl) y

/-- What the case leaves in output window 9's buffer: its stored pieces read back. -/
def out0_B_9 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) : Vec F S1x1 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.2.2.2.1)

/-! ## What the accumulators hold after each point -/

/-- What the six outputs' buffers hold after the body at position `n`: at the first point the first case's contents,
    afterwards the second case's over what the point before left. -/
def outsAt0 (c : Dev nD) : (n : ℕ) → n < cfg0.N → Vec F S1x1 .f32 × Vec F S1x1 .f32 × Vec F S1x1 .f32 × Vec F S1x1 .f32 × Vec F S1x1 .f32 × Vec F S1x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 32 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

theorem outsAt0_A (c : Dev nD) (t : Fin cfg0.N) (h0 : t.val % 32 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and each
    output's at `outsAt0`'s component; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
    | ⟨8, _⟩ => (outsAt0 m c t.val t.isLt).2.2.2.2.1
    | ⟨9, _⟩ => (outsAt0 m c t.val t.isLt).2.2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem after0_7 (c : Dev nD) (t : Fin cfg0.N) : (dats m 0 c).after 7 t = (outsAt0 m c t.val t.isLt).2.2.2.1 := by dsimp only [dats]
theorem after0_8 (c : Dev nD) (t : Fin cfg0.N) : (dats m 0 c).after 8 t = (outsAt0 m c t.val t.isLt).2.2.2.2.1 := by dsimp only [dats]
theorem after0_9 (c : Dev nD) (t : Fin cfg0.N) : (dats m 0 c).after 9 t = (outsAt0 m c t.val t.isLt).2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- After the first point output window 4's buffer holds what the body left at the point before (it is written back only after the last point). -/
theorem before0_4_B (c : Dev nD) (t : Fin cfg0.N) (h0 : ¬t.val % 32 = 0) (d) :
    (dats m 0 c).before 4 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]
/-- After the first point output window 5's buffer holds what the body left at the point before (it is written back only after the last point). -/
theorem before0_5_B (c : Dev nD) (t : Fin cfg0.N) (h0 : ¬t.val % 32 = 0) (d) :
    (dats m 0 c).before 5 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dats]
/-- After the first point output window 6's buffer holds what the body left at the point before (it is written back only after the last point). -/
theorem before0_6_B (c : Dev nD) (t : Fin cfg0.N) (h0 : ¬t.val % 32 = 0) (d) :
    (dats m 0 c).before 6 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  dsimp only [dats]
/-- After the first point output window 7's buffer holds what the body left at the point before (it is written back only after the last point). -/
theorem before0_7_B (c : Dev nD) (t : Fin cfg0.N) (h0 : ¬t.val % 32 = 0) (d) :
    (dats m 0 c).before 7 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 7 rfl t (by omega) (Bool.eq_false_iff.mpr fun h => by have := (flush0_7 _).mp h; dsimp only at this; omega)
    (fun _ => rfl) (fun _ _ => rfl)]
  dsimp only [dats]
/-- After the first point output window 8's buffer holds what the body left at the point before (it is written back only after the last point). -/
theorem before0_8_B (c : Dev nD) (t : Fin cfg0.N) (h0 : ¬t.val % 32 = 0) (d) :
    (dats m 0 c).before 8 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 8 rfl t (by omega) (Bool.eq_false_iff.mpr fun h => by have := (flush0_8 _).mp h; dsimp only at this; omega)
    (fun _ => rfl) (fun _ _ => rfl)]
  dsimp only [dats]
/-- After the first point output window 9's buffer holds what the body left at the point before (it is written back only after the last point). -/
theorem before0_9_B (c : Dev nD) (t : Fin cfg0.N) (h0 : ¬t.val % 32 = 0) (d) :
    (dats m 0 c).before 9 t d = (outsAt0 m c (t.val - 1) (Nat.lt_of_le_of_lt (Nat.sub_le _ _) t.isLt)).2.2.2.2.2 := by
  have hN : t.val < 32 := lt_of_lt_of_eq t.isLt (show cfg0.N = 32 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 4000000 in
/-- The body at any point: the inputs' buffers hold their blocks; the first point is the zeroing case, every other
    point the accumulating case over what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  have hN : t.val < 32 := lt_of_lt_of_eq t.isLt (show cfg0.N = 32 from N_0)
  by_cases h0 : t.val % 32 = 0
  · rw [outsAt0_A m c t h0]
    (try dsimp only)
    unfold out0_A_4 out0_A_5 out0_A_6 out0_A_7 out0_A_8 out0_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ ((hcond0_0 t).mpr h0) (iblk m c 0 t) (iblk m c 1 t) (iblk m c 2 t) (iblk m c 3 t)).2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iintro ⟨H0, H1, H2, H3, ⟨%e4, H4⟩, ⟨%e5, H5⟩, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _ _ _ _ )
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _ )
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ )
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ )
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ )
    unfold owns; iexists _; isplitr
    swap; · iexact H9
    ipureintro; exact View.read_writes_of_cover _ _ _ _ _ (cover0_A_9 c _ _ _ _ _ _ _ _ _ _ _ _ _ _ _ _ _ _ _ _ _ _ _ _ _ _ )
  · rw [outsAt0_B m c t h0]
    simp only [before0_4_B m c t h0, before0_5_B m c t h0, before0_6_B m c t h0, before0_7_B m c t h0, before0_8_B m c t h0, before0_9_B m c t h0]
    (try dsimp only)
    unfold out0_B_4 out0_B_5 out0_B_6 out0_B_7 out0_B_8 out0_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) _ _ _ _ _ _ ).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, ⟨%e4, H4⟩, ⟨%e5, H5⟩, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _ _ _ _ _ _ _ _ _ )
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _ _ _ _ _ _ )
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _ _ )
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _ )
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ )
    unfold owns; iexists _; isplitr
    swap; · iexact H9
    ipureintro; exact View.read_writes_of_cover _ _ _ _ _ (cover0_B_9 c _ _ _ _ _ _ _ _ _ _ _ _ _ _ _ _ _ _ _ _ _ _ _ _ _ _ _ _ _ _ _ _ )

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, each array of the pipeline ending at what the proof data
    give and every other unscoped buffer as the two concatenations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Hand

end
-- ==== Proof.KI.Kit.lean ====
/-
  The launch side of the kernel's frame: the buffer contents the region is entered with (the four
  argument rows re-laid as 131072 x 128 arrays), the program as host lines, the region, and two
  concatenations after it, the blocks the windows stage, and the one condition the body branches on
  (the grid position is the first).
-/
import proofs.«175682_j70781061038447_1_alg».proof.Proof.Gen.KernelIdeal.Launch
import proofs.«175682_j70781061038447_1_alg».proof.Proof.Gen.KernelIdeal.Skeleton
import proofs.«175682_j70781061038447_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffer contents of core `c` when the region is entered: the launch contents after the four re-layings. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the four re-layings, the region, then the two concatenations: it reduces to the region continued
    by the concatenations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The concatenations touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No re-laying writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No concatenation writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No re-laying writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No concatenation writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No re-laying writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No concatenation writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No re-laying writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No concatenation writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- A run to the library's frame post, read at the four argument arrays (which bypass the region and which no
    concatenation writes), is the frame claim. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(((h c).2 main_arg0 (Pipeline.mem_restRefs_of main_arg0 (by decide) (by decide))).trans (W_main_arg0 m dats c)),
     (((h c).2 main_arg1 (Pipeline.mem_restRefs_of main_arg1 (by decide) (by decide))).trans (W_main_arg1 m dats c)),
     (((h c).2 main_arg2 (Pipeline.mem_restRefs_of main_arg2 (by decide) (by decide))).trans (W_main_arg2 m dats c)),
     (((h c).2 main_arg3 (Pipeline.mem_restRefs_of main_arg3 (by decide) (by decide))).trans (W_main_arg3 m dats c))⟩) h

/-! ## The body's one condition -/

/-- The body's branch condition from the grid coordinate: the position is the first. -/
abbrev cond0_0 (i : grid0.Coords) : Prop := (Scalar.cmpi .ne (Scalar.extui (Scalar.cmpi .eq (BitVec.ofNat 32 (i 0).val) 0#32)) 0#32) = 1#1
/-- It holds at the first of the 32 points only. -/
theorem hcond0_0 : ∀ t : Fin cfg0.N, cond0_0 (grid0.coords t) ↔ t.val % 32 = 0 :=
  (by decide +kernel : ∀ t : Fin grid0.N, cond0_0 (grid0.coords t) ↔ t.val % 32 = 0)

/-! ## The staging memrefs the body is called with -/

/-- One staging buffer of output window 4, through which its contents are stated. -/
abbrev VO0_4 : View sig .tc .vmem S1x1 .f32 := (Memref.whole cc0_stg4_0 : Memref sig .tc .vmem S1x1 .f32).view
/-- One staging buffer of output window 5, through which its contents are stated. -/
abbrev VO0_5 : View sig .tc .vmem S1x1 .f32 := (Memref.whole cc0_stg5_0 : Memref sig .tc .vmem S1x1 .f32).view
/-- One staging buffer of output window 6, through which its contents are stated. -/
abbrev VO0_6 : View sig .tc .vmem S1x1 .f32 := (Memref.whole cc0_stg6_0 : Memref sig .tc .vmem S1x1 .f32).view
/-- One staging buffer of output window 7, through which its contents are stated. -/
abbrev VO0_7 : View sig .tc .vmem S1x1 .f32 := (Memref.whole cc0_stg7_0 : Memref sig .tc .vmem S1x1 .f32).view
/-- One staging buffer of output window 8, through which its contents are stated. -/
abbrev VO0_8 : View sig .tc .vmem S1x1 .f32 := (Memref.whole cc0_stg8_0 : Memref sig .tc .vmem S1x1 .f32).view
/-- One staging buffer of output window 9, through which its contents are stated. -/
abbrev VO0_9 : View sig .tc .vmem S1x1 .f32 := (Memref.whole cc0_stg9_0 : Memref sig .tc .vmem S1x1 .f32).view
abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1 .f32 := win0_9.stage (cfg0.slots t 9)
abbrev hs0_9 (t : Fin cfg0.N) : (ms0_9 t).IsWhole := hstage0_9 ((cfg0.slots t 9).cast nbuf0_9)

/-- No window is ever idle: every point loads every input and stores every output. -/
theorem liveAt0 : ∀ (w : Fin cfg0.W) (t : Fin cfg0.N), cfg0.idle w (grid0.coords t) = false := by decide +kernel

end Cert.KernelIdeal.Hand

end
-- ==== Proof.KI.RunA.lean ====
/-
  The body run whole at the first grid point (the branch that zeroes the six accumulators is taken):
  on whole staging buffers, the four input blocks at given contents, the six outputs' buffers at anything,
  the body runs to its end, hands the inputs back as they were and leaves each output's buffer with a
  list of stored pieces, which the run itself determines.
-/
import proofs.«175682_j70781061038447_1_alg».proof.Proof.KI.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces each output's buffer ends with in this case, with the run that leaves them. -/
noncomputable def kernelRun0_A (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) :
    Σ' (L4 : List (View.Piece (Elt F) S1x1 .f32)) (L5 : List (View.Piece (Elt F) S1x1 .f32)) (L6 : List (View.Piece (Elt F) S1x1 .f32)) (L7 : List (View.Piece (Elt F) S1x1 .f32)) (L8 : List (View.Piece (Elt F) S1x1 .f32)), { L9 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0__pairwise_dots_kernel i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__pairwise_dots_kernel_eq_skeleton]; unfold cc0__pairwise_dots_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

end Cert.KernelIdeal.Hand

end
-- ==== Proof.KI.RunB.lean ====
/-
  The body run whole at a later grid point (the zeroing branch is skipped: each accumulator is read at its running value):
  on whole staging buffers, the four input blocks at given contents, the six outputs' buffers at their running contents,
  the body runs to its end, hands the inputs back as they were and leaves each output's buffer with a
  list of stored pieces, which the run itself determines.
-/
import proofs.«175682_j70781061038447_1_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces each output's buffer ends with in this case, with the run that leaves them. -/
noncomputable def kernelRun0_B (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) :
    Σ' (L4 : List (View.Piece (Elt F) S1x1 .f32)) (L5 : List (View.Piece (Elt F) S1x1 .f32)) (L6 : List (View.Piece (Elt F) S1x1 .f32)) (L7 : List (View.Piece (Elt F) S1x1 .f32)) (L8 : List (View.Piece (Elt F) S1x1 .f32)), { L9 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo4 ∗ owns (c : Thread nD τ) arg6 fullShare xo5 ∗ owns (c : Thread nD τ) arg7 fullShare xo6 ∗ owns (c : Thread nD τ) arg8 fullShare xo7 ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0__pairwise_dots_kernel i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__pairwise_dots_kernel_eq_skeleton]; unfold cc0__pairwise_dots_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

end Cert.KernelIdeal.Hand

end
-- ==== Proof.KI.Frame.lean ====
/-
  The kernel's frame and what its six accumulators hold point by point. At the first grid point the
  body zeroes each (1,1) accumulator and adds the block's pairwise product sum; at every later point
  it adds to what the point before left (the accumulators' buffers are written back only after the
  last point). From the two whole-body runs: what each output's buffer holds after each point, the
  proof data of the pipeline, the body obligation at every point, and the run of the whole program.
-/
import proofs.«175682_j70781061038447_1_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In this case the stores into output window 4's buffer cover it. -/
theorem cover0_A_4 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) (y : S1x1.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).1 S1x1.size (by sl_kernel_rfl) y

/-- What the case leaves in output window 4's buffer: its stored pieces read back. -/
def out0_A_4 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) : Vec F S1x1 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 arg10 harg10 hc0 x0 x1 x2 x3).1)

/-- In this case the stores into output window 5's buffer cover it. -/
theorem cover0_A_5 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) (y : S1x1.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.1 S1x1.size (by sl_kernel_rfl) y

/-- What the case leaves in output window 5's buffer: its stored pieces read back. -/
def out0_A_5 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) : Vec F S1x1 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 x0 x1 x2 x3).2.1)

/-- In this case the stores into output window 6's buffer cover it. -/
theorem cover0_A_6 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) (y : S1x1.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.2.1 S1x1.size (by sl_kernel_rfl) y

/-- What the case leaves in output window 6's buffer: its stored pieces read back. -/
def out0_A_6 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) : Vec F S1x1 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 hc0 x0 x1 x2 x3).2.2.1)

/-- In this case the stores into output window 7's buffer cover it. -/
theorem cover0_A_7 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) (y : S1x1.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.2.2.1 S1x1.size (by sl_kernel_rfl) y

/-- What the case leaves in output window 7's buffer: its stored pieces read back. -/
def out0_A_7 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) : Vec F S1x1 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 x0 x1 x2 x3).2.2.2.1)

/-- In this case the stores into output window 8's buffer cover it. -/
theorem cover0_A_8 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) (y : S1x1.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.2.2.2.1 S1x1.size (by sl_kernel_rfl) y

/-- What the case leaves in output window 8's buffer: its stored pieces read back. -/
def out0_A_8 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) : Vec F S1x1 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 hc0 x0 x1 x2 x3).2.2.2.2.1)

/-- In this case the stores into output window 9's buffer cover it. -/
theorem cover0_A_9 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) (y : S1x1.Idx) :
    ∃ pc ∈ (kernelRun0_A c i arg1 harg1 arg2 harg2 arg3 harg3 arg4 harg4 arg5 harg5 arg6 harg6 arg7 harg7 arg8 harg8 arg9 harg9 arg10 harg10 hc0 x0 x1 x2 x3).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3).2.2.2.2.2.1 S1x1.size (by sl_kernel_rfl) y

/-- What the case leaves in output window 9's buffer: its stored pieces read back. -/
def out0_A_9 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) : Vec F S1x1 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 hc0 x0 x1 x2 x3).2.2.2.2.2.1)

/-- In this case the stores into output window 4's buffer cover it. -/
theorem cover0_B_4 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).1 S1x1.size (by sl_kernel_rfl) y

/-- What the case leaves in output window 4's buffer: its stored pieces read back. -/
def out0_B_4 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) : Vec F S1x1 .f32 :=
  VO0_4.read (Elt F) (VO0_4.writes (Elt F) VO0_4.junk (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).1)

/-- In this case the stores into output window 5's buffer cover it. -/
theorem cover0_B_5 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.1 S1x1.size (by sl_kernel_rfl) y

/-- What the case leaves in output window 5's buffer: its stored pieces read back. -/
def out0_B_5 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) : Vec F S1x1 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.1)

/-- In this case the stores into output window 6's buffer cover it. -/
theorem cover0_B_6 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.1 S1x1.size (by sl_kernel_rfl) y

/-- What the case leaves in output window 6's buffer: its stored pieces read back. -/
def out0_B_6 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) : Vec F S1x1 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.1)

/-- In this case the stores into output window 7's buffer cover it. -/
theorem cover0_B_7 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.2.1 S1x1.size (by sl_kernel_rfl) y

/-- What the case leaves in output window 7's buffer: its stored pieces read back. -/
def out0_B_7 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) : Vec F S1x1 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.2.1)

/-- In this case the stores into output window 8's buffer cover it. -/
theorem cover0_B_8 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.2.2.1 S1x1.size (by sl_kernel_rfl) y

/-- What the case leaves in output window 8's buffer: its stored pieces read back. -/
def out0_B_8 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) : Vec F S1x1 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.2.2.1)

/-- In this case the stores into output window 9's buffer cover it. -/
theorem cover0_B_9 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.2.2.2.1 S1x1.size (by sl_kernel_rfl) y

/-- What the case leaves in output window 9's buffer: its stored pieces read back. -/
def out0_B_9 (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) : Vec F S1x1 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 hc0 x0 x1 x2 x3 xo4 xo5 xo6 xo7 xo8 xo9).2.2.2.2.2.1)

/-! ## What the accumulators hold after each point -/

/-- What the six outputs' buffers hold after the body at position `n`: at the first point the first case's contents,
    afterwards the second case's over what the point before left. -/
def outsAt0 (c : Dev nD) : (n : ℕ) → n < cfg0.N → Vec F S1x1 .f32 × Vec F S1x1 .f32 × Vec F S1x1 .f32 × Vec F S1x1 .f32 × Vec F S1x1 .f32 × Vec F S1x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 32 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

theorem outsAt0_A (c : Dev nD) (t : Fin cfg0.N) (h0 : t.val % 32 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and each
    output's at `outsAt0`'s component; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
    | ⟨8, _⟩ => (outsAt0 m c t.val t.isLt).2.2.2.2.1
    | ⟨9, _⟩ => (outsAt0 m c t.val t.isLt).2.2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem after0_7 (c : Dev nD) (t : Fin cfg0.N) : (dats m 0 c).after 7 t = (outsAt0 m c t.val t.isLt).2.2.2.1 := by dsimp only [dats]
theorem after0_8 (c : Dev nD) (t : Fin cfg0.N) : (dats m 0 c).after 8 t = (outsAt0 m c t.val t.isLt).2.2.2.2.1 := by dsimp only [dats]
theorem after0_9 (c : Dev nD) (t : Fin cfg0.N) : (dats m 0 c).after 9 t = (outsAt0 m c t.val t.isLt).2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- After the first point output window 4's buffer holds what the body left at the point before (it is written back only after the last point). -/
theorem before0_4_B (c : Dev nD) (t : Fin cfg0.N) (h0 : ¬t.val % 32 = 0) (d) :
    (dats m 0 c).before 4 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]
/-- After the first point output window 5's buffer holds what the body left at the point before (it is written back only after the last point). -/
theorem before0_5_B (c : Dev nD) (t : Fin cfg0.N) (h0 : ¬t.val % 32 = 0) (d) :
    (dats m 0 c).before 5 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dats]
/-- After the first point output window 6's buffer holds what the body left at the point before (it is written back only after the last point). -/
theorem before0_6_B (c : Dev nD) (t : Fin cfg0.N) (h0 : ¬t.val % 32 = 0) (d) :
    (dats m 0 c).before 6 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 6 rfl t (by omega) (Bool.eq_false_iff.mpr fun h => by have := (flush0_6 _).mp h; dsimp only at this; omega)
    (fun _ => rfl) (fun _ _ => rfl)]
  dsimp only [dats]
/-- After the first point output window 7's buffer holds what the body left at the point before (it is written back only after the last point). -/
theorem before0_7_B (c : Dev nD) (t : Fin cfg0.N) (h0 : ¬t.val % 32 = 0) (d) :
    (dats m 0 c).before 7 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 7 rfl t (by omega) (Bool.eq_false_iff.mpr fun h => by have := (flush0_7 _).mp h; dsimp only at this; omega)
    (fun _ => rfl) (fun _ _ => rfl)]
  dsimp only [dats]
/-- After the first point output window 8's buffer holds what the body left at the point before (it is written back only after the last point). -/
theorem before0_8_B (c : Dev nD) (t : Fin cfg0.N) (h0 : ¬t.val % 32 = 0) (d) :
    (dats m 0 c).before 8 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 8 rfl t (by omega) (Bool.eq_false_iff.mpr fun h => by have := (flush0_8 _).mp h; dsimp only at this; omega)
    (fun _ => rfl) (fun _ _ => rfl)]
  dsimp only [dats]
/-- After the first point output window 9's buffer holds what the body left at the point before (it is written back only after the last point). -/
theorem before0_9_B (c : Dev nD) (t : Fin cfg0.N) (h0 : ¬t.val % 32 = 0) (d) :
    (dats m 0 c).before 9 t d = (outsAt0 m c (t.val - 1) (Nat.lt_of_le_of_lt (Nat.sub_le _ _) t.isLt)).2.2.2.2.2 := by
  have hN : t.val < 32 := lt_of_lt_of_eq t.isLt (show cfg0.N = 32 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 4000000 in
/-- The body at any point: the inputs' buffers hold their blocks; the first point is the zeroing case, every other
    point the accumulating case over what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  have hN : t.val < 32 := lt_of_lt_of_eq t.isLt (show cfg0.N = 32 from N_0)
  by_cases h0 : t.val % 32 = 0
  · rw [outsAt0_A m c t h0]
    (try dsimp only)
    unfold out0_A_4 out0_A_5 out0_A_6 out0_A_7 out0_A_8 out0_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ ((hcond0_0 t).mpr h0) (iblk m c 0 t) (iblk m c 1 t) (iblk m c 2 t) (iblk m c 3 t)).2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iintro ⟨H0, H1, H2, H3, ⟨%e4, H4⟩, ⟨%e5, H5⟩, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _ _ _ _ )
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _ )
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ )
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ )
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ )
    unfold owns; iexists _; isplitr
    swap; · iexact H9
    ipureintro; exact View.read_writes_of_cover _ _ _ _ _ (cover0_A_9 c _ _ _ _ _ _ _ _ _ _ _ _ _ _ _ _ _ _ _ _ _ _ _ _ _ _ )
  · rw [outsAt0_B m c t h0]
    simp only [before0_4_B m c t h0, before0_5_B m c t h0, before0_6_B m c t h0, before0_7_B m c t h0, before0_8_B m c t h0, before0_9_B m c t h0]
    (try dsimp only)
    unfold out0_B_4 out0_B_5 out0_B_6 out0_B_7 out0_B_8 out0_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) _ _ _ _ _ _ ).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, ⟨%e4, H4⟩, ⟨%e5, H5⟩, ⟨%e6, H6⟩, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _ _ _ _ _ _ _ _ _ )
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _ _ _ _ _ _ )
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _ _ )
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _ )
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ )
    unfold owns; iexists _; isplitr
    swap; · iexact H9
    ipureintro; exact View.read_writes_of_cover _ _ _ _ _ (cover0_B_9 c _ _ _ _ _ _ _ _ _ _ _ _ _ _ _ _ _ _ _ _ _ _ _ _ _ _ _ _ _ _ _ _ )

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, each array of the pipeline ending at what the proof data
    give and every other unscoped buffer as the two concatenations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Hand

end
-- ==== Proof.KI.Final.lean ====
/-
  What the program leaves in its result. Each accumulator's (1,1) array is written back once, after
  the last of the 32 points, from the accumulator's buffer: a (1,1) array has a single entry, so the
  write-back of its only block writes the whole array, and it ends at the value after point 31. The two
  concatenations then lay the six values side by side and append them to the first argument row.
-/
import proofs.«175682_j70781061038447_1_alg».proof.Proof.KI.Frame
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last grid point. -/
abbrev t31 : Fin cfg0.N := ⟨31, by rw [show cfg0.N = 32 from N_0]; decide⟩

/-- A (1,1) array has one index. -/
theorem one_idx (a b : S1x1.Idx) : a = b := funext fun d => Fin.ext (by
  have ha : (a d : ℕ) < 1 := by fin_cases d <;> exact (a _).isLt
  have hb : (b d : ℕ) < 1 := by fin_cases d <;> exact (b _).isLt
  omega)

/-- Accumulator 0 after the last point. -/
def fin_4 (c : Dev nD) : Vec F S1x1 .f32 := (outsAt0 m c t31.val t31.isLt).1

/-- Window 4's only block is its whole one-entry array: what the write-back moves of a buffer's contents is
    those contents read as the block of the array. -/
theorem cut_read_4 (X : Vec F S1x1 .f32) :
    (cfg0.win 4).cut (grid0.coords t31) X = ((cfg0.win 4).blk t31).view.read (Elt F) X := by
  funext j
  rw [View.read_apply]
  exact congrArg X (one_idx _ _)

/-- The one write-back of window 4, after the last point, writes the accumulator's last value. -/
theorem flushed_eq_4 (c : Dev nD) (t : Fin cfg0.N) (hf : (cfg0.win 4).flush t = true) :
    (dats m 0 c).flushed 4 t = ((cfg0.win 4).blk t).view.read (Elt F) (fin_4 m c) := by
  have hN : cfg0.N = 32 := N_0
  obtain rfl : t = t31 := Fin.ext (by have h := (flush0_4 t).mp hf; have := t.isLt; dsimp only at h ⊢; omega)
  show (cfg0.win 4).cut (grid0.coords t31) ((dats m 0 c).after 4 t31) = _
  rw [after0_4]
  unfold fin_4
  generalize (outsAt0 m c t31.val t31.isLt).1 = X
  exact cut_read_4 X

/-- That block holds the array's one index. -/
theorem covers_4 : ∀ i : S1x1.Idx, i ∈ ((cfg0.win 4).blk t31).view.set := by decide +kernel

/-- So the array ends at the accumulator's last value. -/
theorem final_4 (c : Dev nD) : (dats m 0 c).arrAt 4 cfg0.N = fin_4 m c :=
  (dats m 0 c).arrAt_eq_of_cover 4 (fin_4 m c) (flushed_eq_4 m c) fun i =>
    ⟨t31, (flush0_4 t31).mpr rfl, covers_4 i⟩

/-- Accumulator 1 after the last point. -/
def fin_5 (c : Dev nD) : Vec F S1x1 .f32 := (outsAt0 m c t31.val t31.isLt).2.1

/-- Window 5's only block is its whole one-entry array: what the write-back moves of a buffer's contents is
    those contents read as the block of the array. -/
theorem cut_read_5 (X : Vec F S1x1 .f32) :
    (cfg0.win 5).cut (grid0.coords t31) X = ((cfg0.win 5).blk t31).view.read (Elt F) X := by
  funext j
  rw [View.read_apply]
  exact congrArg X (one_idx _ _)

/-- The one write-back of window 5, after the last point, writes the accumulator's last value. -/
theorem flushed_eq_5 (c : Dev nD) (t : Fin cfg0.N) (hf : (cfg0.win 5).flush t = true) :
    (dats m 0 c).flushed 5 t = ((cfg0.win 5).blk t).view.read (Elt F) (fin_5 m c) := by
  have hN : cfg0.N = 32 := N_0
  obtain rfl : t = t31 := Fin.ext (by have h := (flush0_5 t).mp hf; have := t.isLt; dsimp only at h ⊢; omega)
  show (cfg0.win 5).cut (grid0.coords t31) ((dats m 0 c).after 5 t31) = _
  rw [after0_5]
  unfold fin_5
  generalize (outsAt0 m c t31.val t31.isLt).2.1 = X
  exact cut_read_5 X

/-- That block holds the array's one index. -/
theorem covers_5 : ∀ i : S1x1.Idx, i ∈ ((cfg0.win 5).blk t31).view.set := by decide +kernel

/-- So the array ends at the accumulator's last value. -/
theorem final_5 (c : Dev nD) : (dats m 0 c).arrAt 5 cfg0.N = fin_5 m c :=
  (dats m 0 c).arrAt_eq_of_cover 5 (fin_5 m c) (flushed_eq_5 m c) fun i =>
    ⟨t31, (flush0_5 t31).mpr rfl, covers_5 i⟩

/-- Accumulator 2 after the last point. -/
def fin_6 (c : Dev nD) : Vec F S1x1 .f32 := (outsAt0 m c t31.val t31.isLt).2.2.1

/-- Window 6's only block is its whole one-entry array: what the write-back moves of a buffer's contents is
    those contents read as the block of the array. -/
theorem cut_read_6 (X : Vec F S1x1 .f32) :
    (cfg0.win 6).cut (grid0.coords t31) X = ((cfg0.win 6).blk t31).view.read (Elt F) X := by
  funext j
  rw [View.read_apply]
  exact congrArg X (one_idx _ _)

/-- The one write-back of window 6, after the last point, writes the accumulator's last value. -/
theorem flushed_eq_6 (c : Dev nD) (t : Fin cfg0.N) (hf : (cfg0.win 6).flush t = true) :
    (dats m 0 c).flushed 6 t = ((cfg0.win 6).blk t).view.read (Elt F) (fin_6 m c) := by
  have hN : cfg0.N = 32 := N_0
  obtain rfl : t = t31 := Fin.ext (by have h := (flush0_6 t).mp hf; have := t.isLt; dsimp only at h ⊢; omega)
  show (cfg0.win 6).cut (grid0.coords t31) ((dats m 0 c).after 6 t31) = _
  rw [after0_6]
  unfold fin_6
  generalize (outsAt0 m c t31.val t31.isLt).2.2.1 = X
  exact cut_read_6 X

/-- That block holds the array's one index. -/
theorem covers_6 : ∀ i : S1x1.Idx, i ∈ ((cfg0.win 6).blk t31).view.set := by decide +kernel

/-- So the array ends at the accumulator's last value. -/
theorem final_6 (c : Dev nD) : (dats m 0 c).arrAt 6 cfg0.N = fin_6 m c :=
  (dats m 0 c).arrAt_eq_of_cover 6 (fin_6 m c) (flushed_eq_6 m c) fun i =>
    ⟨t31, (flush0_6 t31).mpr rfl, covers_6 i⟩

/-- Accumulator 3 after the last point. -/
def fin_7 (c : Dev nD) : Vec F S1x1 .f32 := (outsAt0 m c t31.val t31.isLt).2.2.2.1

/-- Window 7's only block is its whole one-entry array: what the write-back moves of a buffer's contents is
    those contents read as the block of the array. -/
theorem cut_read_7 (X : Vec F S1x1 .f32) :
    (cfg0.win 7).cut (grid0.coords t31) X = ((cfg0.win 7).blk t31).view.read (Elt F) X := by
  funext j
  rw [View.read_apply]
  exact congrArg X (one_idx _ _)

/-- The one write-back of window 7, after the last point, writes the accumulator's last value. -/
theorem flushed_eq_7 (c : Dev nD) (t : Fin cfg0.N) (hf : (cfg0.win 7).flush t = true) :
    (dats m 0 c).flushed 7 t = ((cfg0.win 7).blk t).view.read (Elt F) (fin_7 m c) := by
  have hN : cfg0.N = 32 := N_0
  obtain rfl : t = t31 := Fin.ext (by have h := (flush0_7 t).mp hf; have := t.isLt; dsimp only at h ⊢; omega)
  show (cfg0.win 7).cut (grid0.coords t31) ((dats m 0 c).after 7 t31) = _
  rw [after0_7]
  unfold fin_7
  generalize (outsAt0 m c t31.val t31.isLt).2.2.2.1 = X
  exact cut_read_7 X

/-- That block holds the array's one index. -/
theorem covers_7 : ∀ i : S1x1.Idx, i ∈ ((cfg0.win 7).blk t31).view.set := by decide +kernel

/-- So the array ends at the accumulator's last value. -/
theorem final_7 (c : Dev nD) : (dats m 0 c).arrAt 7 cfg0.N = fin_7 m c :=
  (dats m 0 c).arrAt_eq_of_cover 7 (fin_7 m c) (flushed_eq_7 m c) fun i =>
    ⟨t31, (flush0_7 t31).mpr rfl, covers_7 i⟩

/-- Accumulator 4 after the last point. -/
def fin_8 (c : Dev nD) : Vec F S1x1 .f32 := (outsAt0 m c t31.val t31.isLt).2.2.2.2.1

/-- Window 8's only block is its whole one-entry array: what the write-back moves of a buffer's contents is
    those contents read as the block of the array. -/
theorem cut_read_8 (X : Vec F S1x1 .f32) :
    (cfg0.win 8).cut (grid0.coords t31) X = ((cfg0.win 8).blk t31).view.read (Elt F) X := by
  funext j
  rw [View.read_apply]
  exact congrArg X (one_idx _ _)

/-- The one write-back of window 8, after the last point, writes the accumulator's last value. -/
theorem flushed_eq_8 (c : Dev nD) (t : Fin cfg0.N) (hf : (cfg0.win 8).flush t = true) :
    (dats m 0 c).flushed 8 t = ((cfg0.win 8).blk t).view.read (Elt F) (fin_8 m c) := by
  have hN : cfg0.N = 32 := N_0
  obtain rfl : t = t31 := Fin.ext (by have h := (flush0_8 t).mp hf; have := t.isLt; dsimp only at h ⊢; omega)
  show (cfg0.win 8).cut (grid0.coords t31) ((dats m 0 c).after 8 t31) = _
  rw [after0_8]
  unfold fin_8
  generalize (outsAt0 m c t31.val t31.isLt).2.2.2.2.1 = X
  exact cut_read_8 X

/-- That block holds the array's one index. -/
theorem covers_8 : ∀ i : S1x1.Idx, i ∈ ((cfg0.win 8).blk t31).view.set := by decide +kernel

/-- So the array ends at the accumulator's last value. -/
theorem final_8 (c : Dev nD) : (dats m 0 c).arrAt 8 cfg0.N = fin_8 m c :=
  (dats m 0 c).arrAt_eq_of_cover 8 (fin_8 m c) (flushed_eq_8 m c) fun i =>
    ⟨t31, (flush0_8 t31).mpr rfl, covers_8 i⟩

/-- Accumulator 5 after the last point. -/
def fin_9 (c : Dev nD) : Vec F S1x1 .f32 := (outsAt0 m c t31.val t31.isLt).2.2.2.2.2

/-- Window 9's only block is its whole one-entry array: what the write-back moves of a buffer's contents is
    those contents read as the block of the array. -/
theorem cut_read_9 (X : Vec F S1x1 .f32) :
    (cfg0.win 9).cut (grid0.coords t31) X = ((cfg0.win 9).blk t31).view.read (Elt F) X := by
  funext j
  rw [View.read_apply]
  exact congrArg X (one_idx _ _)

/-- The one write-back of window 9, after the last point, writes the accumulator's last value. -/
theorem flushed_eq_9 (c : Dev nD) (t : Fin cfg0.N) (hf : (cfg0.win 9).flush t = true) :
    (dats m 0 c).flushed 9 t = ((cfg0.win 9).blk t).view.read (Elt F) (fin_9 m c) := by
  have hN : cfg0.N = 32 := N_0
  obtain rfl : t = t31 := Fin.ext (by have h := (flush0_9 t).mp hf; have := t.isLt; dsimp only at h ⊢; omega)
  show (cfg0.win 9).cut (grid0.coords t31) ((dats m 0 c).after 9 t31) = _
  rw [after0_9]
  unfold fin_9
  generalize (outsAt0 m c t31.val t31.isLt).2.2.2.2.2 = X
  exact cut_read_9 X

/-- That block holds the array's one index. -/
theorem covers_9 : ∀ i : S1x1.Idx, i ∈ ((cfg0.win 9).blk t31).view.set := by decide +kernel

/-- So the array ends at the accumulator's last value. -/
theorem final_9 (c : Dev nD) : (dats m 0 c).arrAt 9 cfg0.N = fin_9 m c :=
  (dats m 0 c).arrAt_eq_of_cover 9 (fin_9 m c) (flushed_eq_9 m c) fun i =>
    ⟨t31, (flush0_9 t31).mpr rfl, covers_9 i⟩

/-- The six values side by side. -/
def six (c : Dev nD) : (⟨S1x6, .f32⟩ : BufTy).Contents (Elt F) :=
  concatenate S1x6 1 [⟨S1x1, fin_4 m c⟩, ⟨S1x1, fin_5 m c⟩, ⟨S1x1, fin_6 m c⟩, ⟨S1x1, fin_7 m c⟩, ⟨S1x1, fin_8 m c⟩, ⟨S1x1, fin_9 m c⟩] concatenates_S1x1_S1x1_S1x1_S1x1_S1x1_S1x1_S1x6_d1

/-- The result buffer after the two concatenations: the first argument row followed by the six values. -/
theorem tail_v6 (c : Dev nD) :
    Pipeline.afterTail₀ cfgs (dats m) 0 (V0 m) [hostOps1] c main_v6
      = concatenate S1x16777222 1 [⟨S1x16777216, m ((c : Thread nD τ).loc main_arg0)⟩, ⟨S1x6, six m c⟩] concatenates_S1x16777216_S1x6_S1x16777222_d1 := by
  unfold Pipeline.afterTail₀
  show StableHlo.after hostOps1 _ (Proc.devRef .tc main_v6) = _
  after_results
  show concatenate S1x16777222 1 [⟨S1x16777216, Pipeline.withArrays spec0 c (V0 m c) (fun w => (dats m 0 c).arrAt w cfg0.N) (Proc.devRef .tc main_arg0)⟩,
      ⟨S1x6, concatenate S1x6 1 [⟨S1x1, Pipeline.withArrays spec0 c (V0 m c) (fun w => (dats m 0 c).arrAt w cfg0.N) (Proc.devRef .tc (Pipeline.arrRef spec0 4))⟩, ⟨S1x1, Pipeline.withArrays spec0 c (V0 m c) (fun w => (dats m 0 c).arrAt w cfg0.N) (Proc.devRef .tc (Pipeline.arrRef spec0 5))⟩, ⟨S1x1, Pipeline.withArrays spec0 c (V0 m c) (fun w => (dats m 0 c).arrAt w cfg0.N) (Proc.devRef .tc (Pipeline.arrRef spec0 6))⟩, ⟨S1x1, Pipeline.withArrays spec0 c (V0 m c) (fun w => (dats m 0 c).arrAt w cfg0.N) (Proc.devRef .tc (Pipeline.arrRef spec0 7))⟩, ⟨S1x1, Pipeline.withArrays spec0 c (V0 m c) (fun w => (dats m 0 c).arrAt w cfg0.N) (Proc.devRef .tc (Pipeline.arrRef spec0 8))⟩, ⟨S1x1, Pipeline.withArrays spec0 c (V0 m c) (fun w => (dats m 0 c).arrAt w cfg0.N) (Proc.devRef .tc (Pipeline.arrRef spec0 9))⟩] concatenates_S1x1_S1x1_S1x1_S1x1_S1x1_S1x1_S1x6_d1⟩] concatenates_S1x16777216_S1x6_S1x16777222_d1 = _
  rw [Pipeline.withArrays_arr spec0 launch0.win.arr_inj c _ _ 4, Pipeline.withArrays_arr spec0 launch0.win.arr_inj c _ _ 5, Pipeline.withArrays_arr spec0 launch0.win.arr_inj c _ _ 6, Pipeline.withArrays_arr spec0 launch0.win.arr_inj c _ _ 7, Pipeline.withArrays_arr spec0 launch0.win.arr_inj c _ _ 8, Pipeline.withArrays_arr spec0 launch0.win.arr_inj c _ _ 9,
    final_4, final_5, final_6, final_7, final_8, final_9,
    Pipeline.withArrays_of_ne spec0 c (V0 m c) _ main_arg0 (by exact (by decide : ∀ w, Pipeline.arrRef spec0 w ≠ main_arg0))]
  rw [show V0 m c (Proc.devRef .tc main_arg0) = m ((c : Thread nD τ).loc main_arg0) from V_main_arg0 m c]
  rfl

/-- The run of the whole program with its result named: the first argument row followed by the six accumulated
    values, the four arguments unchanged. -/
theorem run_value : θ_run defs (onTc (τ := τ) (main (F := F))) ⟨m, fun _ => 0, ρ⟩ (fun r => ∀ c : Dev nD,
      r.2.mem ((c.tc : Thread nD τ).loc main_v6)
        = concatenate S1x16777222 1 [⟨S1x16777216, m ((c : Thread nD τ).loc main_arg0)⟩, ⟨S1x6, six m c⟩] concatenates_S1x16777216_S1x6_S1x16777222_d1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(((h c).2 main_v6 (Pipeline.mem_restRefs_of main_v6 (by decide) (by decide))).trans (tail_v6 m c)),
     (((h c).2 main_arg0 (Pipeline.mem_restRefs_of main_arg0 (by decide) (by decide))).trans (W_main_arg0 m (dats m) c)),
     (((h c).2 main_arg1 (Pipeline.mem_restRefs_of main_arg1 (by decide) (by decide))).trans (W_main_arg1 m (dats m) c)),
     (((h c).2 main_arg2 (Pipeline.mem_restRefs_of main_arg2 (by decide) (by decide))).trans (W_main_arg2 m (dats m) c)),
     (((h c).2 main_arg3 (Pipeline.mem_restRefs_of main_arg3 (by decide) (by decide))).trans (W_main_arg3 m (dats m) c))⟩)
    (run_main m ρ)

end Cert.KernelIdeal.Hand

end
-- ==== Proof.KI.Pieces.lean ====
/-
  What each case of the body leaves in each accumulator's buffer, as one term: at a later point the
  accumulator's running value plus the block's product sum; at the first point the same with the
  running value the zero just stored.
-/
import proofs.«175682_j70781061038447_1_alg».proof.Proof.KI.Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offset of every access of the body: the origin. -/
theorem hz : (![0, 0] : Fin 2 → Nat) = fun _ => 0 := funext fun a => by fin_cases a <;> rfl

/-- At a later point output window 4's buffer ends at its update of the running value. -/
theorem out0_B_4_eq (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) :
    out0_B_4 (F := F) c i arg1 harg1 arg2 harg2 arg3 harg3 arg4 harg4 arg5 harg5 arg6 harg6 arg7 harg7 arg8 harg8 arg9 harg9 arg10 harg10 hc0 x0 x1 x2 x3 xo4 xo5 xo6 xo7 xo8 xo9 = k0_pay11 x0 x1 xo4 := by
  unfold out0_B_4
  rw [View.read_writes_eq_canon _ _ _ (cover0_B_4 c i arg1 harg1 arg2 harg2 arg3 harg3 arg4 harg4 arg5 harg5 arg6 harg6 arg7 harg7 arg8 harg8 arg9 harg9 arg10 harg10 hc0 x0 x1 x2 x3 xo4 xo5 xo6 xo7 xo8 xo9)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S4096x128) hz, View.ld_unit_zero (S := S1x1) hz]

/-- At the first point it ends at the update of the zero just stored. -/
theorem out0_A_4_eq (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) :
    out0_A_4 (F := F) c i arg1 harg1 arg2 harg2 arg3 harg3 arg4 harg4 arg5 harg5 arg6 harg6 arg7 harg7 arg8 harg8 arg9 harg9 arg10 harg10 hc0 x0 x1 x2 x3 = k0_pay11 x0 x1 k0_pay1 := by
  unfold out0_A_4
  rw [View.read_writes_eq_canon _ _ _ (cover0_A_4 c i arg1 harg1 arg2 harg2 arg3 harg3 arg4 harg4 arg5 harg5 arg6 harg6 arg7 harg7 arg8 harg8 arg9 harg9 arg10 harg10 hc0 x0 x1 x2 x3)]
  unfold kernelRun0_A
  dsimp only
  sl_unfold_words
  rw [View.canon_cons_unit_zero (S := S1x1) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S4096x128) hz, View.ld_unit_zero (S := S1x1) hz, View.readCov_unit_zero (S := S1x1) _ hz]

/-- At a later point output window 5's buffer ends at its update of the running value. -/
theorem out0_B_5_eq (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) :
    out0_B_5 (F := F) c i arg1 harg1 arg2 harg2 arg3 harg3 arg4 harg4 arg5 harg5 arg6 harg6 arg7 harg7 arg8 harg8 arg9 harg9 arg10 harg10 hc0 x0 x1 x2 x3 xo4 xo5 xo6 xo7 xo8 xo9 = k0_pay12 x0 x2 xo5 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 x0 x1 x2 x3 xo4 xo5 xo6 xo7 xo8 xo9)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S4096x128) hz, View.ld_unit_zero (S := S1x1) hz]

/-- At the first point it ends at the update of the zero just stored. -/
theorem out0_A_5_eq (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) :
    out0_A_5 (F := F) c i arg1 harg1 arg2 harg2 arg3 harg3 arg4 harg4 arg5 harg5 arg6 harg6 arg7 harg7 arg8 harg8 arg9 harg9 arg10 harg10 hc0 x0 x1 x2 x3 = k0_pay12 x0 x2 k0_pay2 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 x0 x1 x2 x3)]
  unfold kernelRun0_A
  dsimp only
  sl_unfold_words
  rw [View.canon_cons_unit_zero (S := S1x1) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S4096x128) hz, View.ld_unit_zero (S := S1x1) hz, View.readCov_unit_zero (S := S1x1) _ hz]

/-- At a later point output window 6's buffer ends at its update of the running value. -/
theorem out0_B_6_eq (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) :
    out0_B_6 (F := F) c i arg1 harg1 arg2 harg2 arg3 harg3 arg4 harg4 arg5 harg5 arg6 harg6 arg7 harg7 arg8 harg8 arg9 harg9 arg10 harg10 hc0 x0 x1 x2 x3 xo4 xo5 xo6 xo7 xo8 xo9 = k0_pay15 (k0_pay13 xo6) (k0_pay14 x1 x2) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 xo4 xo5 xo6 xo7 xo8 xo9)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S4096x128) hz, View.ld_unit_zero (S := S1x1) hz]

/-- At the first point it ends at the update of the zero just stored. -/
theorem out0_A_6_eq (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) :
    out0_A_6 (F := F) c i arg1 harg1 arg2 harg2 arg3 harg3 arg4 harg4 arg5 harg5 arg6 harg6 arg7 harg7 arg8 harg8 arg9 harg9 arg10 harg10 hc0 x0 x1 x2 x3 = k0_pay15 (k0_pay13 k0_pay3) (k0_pay14 x1 x2) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3)]
  unfold kernelRun0_A
  dsimp only
  sl_unfold_words
  rw [View.canon_cons_unit_zero (S := S1x1) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S4096x128) hz, View.ld_unit_zero (S := S1x1) hz, View.readCov_unit_zero (S := S1x1) _ hz]

/-- At a later point output window 7's buffer ends at its update of the running value. -/
theorem out0_B_7_eq (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) :
    out0_B_7 (F := F) c i arg1 harg1 arg2 harg2 arg3 harg3 arg4 harg4 arg5 harg5 arg6 harg6 arg7 harg7 arg8 harg8 arg9 harg9 arg10 harg10 hc0 x0 x1 x2 x3 xo4 xo5 xo6 xo7 xo8 xo9 = k0_pay16 (k0_pay7 x0) (k0_pay10 x3) xo7 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 xo4 xo5 xo6 xo7 xo8 xo9)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S4096x128) hz, View.ld_unit_zero (S := S1x1) hz]

/-- At the first point it ends at the update of the zero just stored. -/
theorem out0_A_7_eq (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) :
    out0_A_7 (F := F) c i arg1 harg1 arg2 harg2 arg3 harg3 arg4 harg4 arg5 harg5 arg6 harg6 arg7 harg7 arg8 harg8 arg9 harg9 arg10 harg10 hc0 x0 x1 x2 x3 = k0_pay16 (k0_pay7 x0) (k0_pay10 x3) k0_pay4 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3)]
  unfold kernelRun0_A
  dsimp only
  sl_unfold_words
  rw [View.canon_cons_unit_zero (S := S1x1) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S4096x128) hz, View.ld_unit_zero (S := S1x1) hz, View.readCov_unit_zero (S := S1x1) _ hz]

/-- At a later point output window 8's buffer ends at its update of the running value. -/
theorem out0_B_8_eq (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) :
    out0_B_8 (F := F) c i arg1 harg1 arg2 harg2 arg3 harg3 arg4 harg4 arg5 harg5 arg6 harg6 arg7 harg7 arg8 harg8 arg9 harg9 arg10 harg10 hc0 x0 x1 x2 x3 xo4 xo5 xo6 xo7 xo8 xo9 = k0_pay17 (k0_pay8 x1) (k0_pay10 x3) xo8 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 xo4 xo5 xo6 xo7 xo8 xo9)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S4096x128) hz, View.ld_unit_zero (S := S1x1) hz]

/-- At the first point it ends at the update of the zero just stored. -/
theorem out0_A_8_eq (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) :
    out0_A_8 (F := F) c i arg1 harg1 arg2 harg2 arg3 harg3 arg4 harg4 arg5 harg5 arg6 harg6 arg7 harg7 arg8 harg8 arg9 harg9 arg10 harg10 hc0 x0 x1 x2 x3 = k0_pay17 (k0_pay8 x1) (k0_pay10 x3) k0_pay5 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3)]
  unfold kernelRun0_A
  dsimp only
  sl_unfold_words
  rw [View.canon_cons_unit_zero (S := S1x1) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S4096x128) hz, View.ld_unit_zero (S := S1x1) hz, View.readCov_unit_zero (S := S1x1) _ hz]

/-- At a later point output window 9's buffer ends at its update of the running value. -/
theorem out0_B_9_eq (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i)
    (x0 : Vec F S4096x128 .f32) (x1 : Vec F S4096x128 .f32) (x2 : Vec F S4096x128 .f32) (x3 : Vec F S4096x128 .f32) (xo4 : Vec F S1x1 .f32) (xo5 : Vec F S1x1 .f32) (xo6 : Vec F S1x1 .f32) (xo7 : Vec F S1x1 .f32) (xo8 : Vec F S1x1 .f32) (xo9 : Vec F S1x1 .f32) :
    out0_B_9 (F := F) c i arg1 harg1 arg2 harg2 arg3 harg3 arg4 harg4 arg5 harg5 arg6 harg6 arg7 harg7 arg8 harg8 arg9 harg9 arg10 harg10 hc0 x0 x1 x2 x3 xo4 xo5 xo6 xo7 xo8 xo9 = k0_pay18 (k0_pay9 x2) (k0_pay10 x3) xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 x0 x1 x2 x3 xo4 xo5 xo6 xo7 xo8 xo9)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S4096x128) hz, View.ld_unit_zero (S := S1x1) hz]

/-- At the first point it ends at the update of the zero just stored. -/
theorem out0_A_9_eq (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i)
    (x0 : Vec F S4096x128 .f32) (x1 : Vec F S4096x128 .f32) (x2 : Vec F S4096x128 .f32) (x3 : Vec F S4096x128 .f32) :
    out0_A_9 (F := F) c i arg1 harg1 arg2 harg2 arg3 harg3 arg4 harg4 arg5 harg5 arg6 harg6 arg7 harg7 arg8 harg8 arg9 harg9 arg10 harg10 hc0 x0 x1 x2 x3 = k0_pay18 (k0_pay9 x2) (k0_pay10 x3) k0_pay6 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 x0 x1 x2 x3)]
  unfold kernelRun0_A
  dsimp only
  sl_unfold_words
  rw [View.canon_cons_unit_zero (S := S1x1) hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S4096x128) hz, View.ld_unit_zero (S := S1x1) hz, View.readCov_unit_zero (S := S1x1) _ hz]

end Cert.KernelIdeal.Hand

end
-- ==== Proof.KI.Blk.lean ====
/-
  The four input blocks at a grid point, each named at its literal type (4096 rows of 128 lanes): block
  `t` of the re-laid argument `k` is rows 4096 t to 4096 t + 4095 of the 131072 x 128 array.
-/
import proofs.«175682_j70781061038447_1_alg».proof.Proof.KI.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev blk0 (c : Dev nD) (t : Fin cfg0.N) : Vec F S4096x128 .f32 := iblk m c 0 t
abbrev blk1 (c : Dev nD) (t : Fin cfg0.N) : Vec F S4096x128 .f32 := iblk m c 1 t
abbrev blk2 (c : Dev nD) (t : Fin cfg0.N) : Vec F S4096x128 .f32 := iblk m c 2 t
abbrev blk3 (c : Dev nD) (t : Fin cfg0.N) : Vec F S4096x128 .f32 := iblk m c 3 t

end Cert.KernelIdeal.Hand

end
-- ==== Proof.KI.Steps.lean ====
/-
  One grid point's effect on each accumulator, over the named blocks: at the first point the zero
  plus the block's product sum, at a later point the previous point's value plus it.
-/
import proofs.«175682_j70781061038447_1_alg».proof.Proof.KI.Pieces
import proofs.«175682_j70781061038447_1_alg».proof.Proof.KI.Blk

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem stepA_4 (c : Dev nD) (t : Fin cfg0.N) (h0 : t.val % 32 = 0) :
    (outsAt0 m c t.val t.isLt).1 = k0_pay11 (blk0 m c t) (blk1 m c t) k0_pay1 := by
  rw [outsAt0_A m c t h0]
  dsimp only
  exact out0_A_4_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (blk0 m c t) (blk1 m c t) (blk2 m c t) (blk3 m c t)

theorem stepB_4 (c : Dev nD) (t : Fin cfg0.N) (h0 : ¬t.val % 32 = 0) :
    (outsAt0 m c t.val t.isLt).1 = k0_pay11 (blk0 m c t) (blk1 m c t) ((outsAt0 m c (t.val - 1) (Nat.lt_of_le_of_lt (Nat.sub_le _ _) t.isLt)).1) := by
  rw [outsAt0_B m c t h0]
  dsimp only
  exact out0_B_4_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (blk0 m c t) (blk1 m c t) (blk2 m c t) (blk3 m c t) ((outsAt0 m c (t.val - 1) (Nat.lt_of_le_of_lt (Nat.sub_le _ _) t.isLt)).1) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2)

theorem stepA_5 (c : Dev nD) (t : Fin cfg0.N) (h0 : t.val % 32 = 0) :
    (outsAt0 m c t.val t.isLt).2.1 = k0_pay12 (blk0 m c t) (blk2 m c t) k0_pay2 := by
  rw [outsAt0_A m c t h0]
  dsimp only
  exact out0_A_5_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (blk0 m c t) (blk1 m c t) (blk2 m c t) (blk3 m c t)

theorem stepB_5 (c : Dev nD) (t : Fin cfg0.N) (h0 : ¬t.val % 32 = 0) :
    (outsAt0 m c t.val t.isLt).2.1 = k0_pay12 (blk0 m c t) (blk2 m c t) ((outsAt0 m c (t.val - 1) (Nat.lt_of_le_of_lt (Nat.sub_le _ _) t.isLt)).2.1) := by
  rw [outsAt0_B m c t h0]
  dsimp only
  exact out0_B_5_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (blk0 m c t) (blk1 m c t) (blk2 m c t) (blk3 m c t) ((outsAt0 m c (t.val - 1) (Nat.lt_of_le_of_lt (Nat.sub_le _ _) t.isLt)).1) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2)

theorem stepA_6 (c : Dev nD) (t : Fin cfg0.N) (h0 : t.val % 32 = 0) :
    (outsAt0 m c t.val t.isLt).2.2.1 = k0_pay15 (k0_pay13 k0_pay3) (k0_pay14 (blk1 m c t) (blk2 m c t)) := by
  rw [outsAt0_A m c t h0]
  dsimp only
  exact out0_A_6_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (blk0 m c t) (blk1 m c t) (blk2 m c t) (blk3 m c t)

theorem stepB_6 (c : Dev nD) (t : Fin cfg0.N) (h0 : ¬t.val % 32 = 0) :
    (outsAt0 m c t.val t.isLt).2.2.1 = k0_pay15 (k0_pay13 ((outsAt0 m c (t.val - 1) (Nat.lt_of_le_of_lt (Nat.sub_le _ _) t.isLt)).2.2.1)) (k0_pay14 (blk1 m c t) (blk2 m c t)) := by
  rw [outsAt0_B m c t h0]
  dsimp only
  exact out0_B_6_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (blk0 m c t) (blk1 m c t) (blk2 m c t) (blk3 m c t) ((outsAt0 m c (t.val - 1) (Nat.lt_of_le_of_lt (Nat.sub_le _ _) t.isLt)).1) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2)

theorem stepA_7 (c : Dev nD) (t : Fin cfg0.N) (h0 : t.val % 32 = 0) :
    (outsAt0 m c t.val t.isLt).2.2.2.1 = k0_pay16 (k0_pay7 (blk0 m c t)) (k0_pay10 (blk3 m c t)) k0_pay4 := by
  rw [outsAt0_A m c t h0]
  dsimp only
  exact out0_A_7_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (blk0 m c t) (blk1 m c t) (blk2 m c t) (blk3 m c t)

theorem stepB_7 (c : Dev nD) (t : Fin cfg0.N) (h0 : ¬t.val % 32 = 0) :
    (outsAt0 m c t.val t.isLt).2.2.2.1 = k0_pay16 (k0_pay7 (blk0 m c t)) (k0_pay10 (blk3 m c t)) ((outsAt0 m c (t.val - 1) (Nat.lt_of_le_of_lt (Nat.sub_le _ _) t.isLt)).2.2.2.1) := by
  rw [outsAt0_B m c t h0]
  dsimp only
  exact out0_B_7_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (blk0 m c t) (blk1 m c t) (blk2 m c t) (blk3 m c t) ((outsAt0 m c (t.val - 1) (Nat.lt_of_le_of_lt (Nat.sub_le _ _) t.isLt)).1) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2)

theorem stepA_8 (c : Dev nD) (t : Fin cfg0.N) (h0 : t.val % 32 = 0) :
    (outsAt0 m c t.val t.isLt).2.2.2.2.1 = k0_pay17 (k0_pay8 (blk1 m c t)) (k0_pay10 (blk3 m c t)) k0_pay5 := by
  rw [outsAt0_A m c t h0]
  dsimp only
  exact out0_A_8_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (blk0 m c t) (blk1 m c t) (blk2 m c t) (blk3 m c t)

theorem stepB_8 (c : Dev nD) (t : Fin cfg0.N) (h0 : ¬t.val % 32 = 0) :
    (outsAt0 m c t.val t.isLt).2.2.2.2.1 = k0_pay17 (k0_pay8 (blk1 m c t)) (k0_pay10 (blk3 m c t)) ((outsAt0 m c (t.val - 1) (Nat.lt_of_le_of_lt (Nat.sub_le _ _) t.isLt)).2.2.2.2.1) := by
  rw [outsAt0_B m c t h0]
  dsimp only
  exact out0_B_8_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (blk0 m c t) (blk1 m c t) (blk2 m c t) (blk3 m c t) ((outsAt0 m c (t.val - 1) (Nat.lt_of_le_of_lt (Nat.sub_le _ _) t.isLt)).1) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2)

theorem stepA_9 (c : Dev nD) (t : Fin cfg0.N) (h0 : t.val % 32 = 0) :
    (outsAt0 m c t.val t.isLt).2.2.2.2.2 = k0_pay18 (k0_pay9 (blk2 m c t)) (k0_pay10 (blk3 m c t)) k0_pay6 := by
  rw [outsAt0_A m c t h0]
  dsimp only
  exact out0_A_9_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (blk0 m c t) (blk1 m c t) (blk2 m c t) (blk3 m c t)

theorem stepB_9 (c : Dev nD) (t : Fin cfg0.N) (h0 : ¬t.val % 32 = 0) :
    (outsAt0 m c t.val t.isLt).2.2.2.2.2 = k0_pay18 (k0_pay9 (blk2 m c t)) (k0_pay10 (blk3 m c t)) ((outsAt0 m c (t.val - 1) (Nat.lt_of_le_of_lt (Nat.sub_le _ _) t.isLt)).2.2.2.2.2) := by
  rw [outsAt0_B m c t h0]
  dsimp only
  exact out0_B_9_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (blk0 m c t) (blk1 m c t) (blk2 m c t) (blk3 m c t) ((outsAt0 m c (t.val - 1) (Nat.lt_of_le_of_lt (Nat.sub_le _ _) t.isLt)).1) ((outsAt0 m c (t.val - 1) (Nat.lt_of_le_of_lt (Nat.sub_le _ _) t.isLt)).2.1) ((outsAt0 m c (t.val - 1) (Nat.lt_of_le_of_lt (Nat.sub_le _ _) t.isLt)).2.2.1) ((outsAt0 m c (t.val - 1) (Nat.lt_of_le_of_lt (Nat.sub_le _ _) t.isLt)).2.2.2.1) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2)

end Cert.KernelIdeal.Hand

end
-- ==== Proof.Spec.lean ====
/-
  What both programs compute, as one function of the four argument rows: the six pairwise dot products
  of the rows x, l0, l1, l2 (each a sum of 16777216 products on the extended reals), in the order
  (x,l0), (x,l1), (l0,l1), (x,l2), (l0,l2), (l1,l2), laid side by side as a 1 x 6 array.
-/
import Idealize.ShloMosaic.PureOps.Ideal
import Idealize.ShloMosaic.Lib.ValueIdx

noncomputable section

open scoped BigOperators

namespace Cert.Spec

open Idealize.ShloMosaic Idealize.ShloMosaic.ValueIdx

/-- One argument row. -/
abbrev Row : Shape := ⟨2, ![1, 16777216]⟩
/-- The six products side by side. -/
abbrev Six : Shape := ⟨2, ![1, 6]⟩

/-- The dot product of two rows: the sum over all 16777216 positions of the products. -/
def dot (a b : FVec Ideal Row .f32) : EReal := ∑ k : Fin 16777216, a (ix2 0 k) * b (ix2 0 k)

theorem dot_comm (a b : FVec Ideal Row .f32) : dot a b = dot b a := by
  unfold dot; exact Finset.sum_congr rfl fun k _ => mul_comm _ _

/-- The row of the stacked 4 x 16777216 array `[x; l0; l1; l2]` at position `n`. -/
def row (x l0 l1 l2 : FVec Ideal Row .f32) (n : ℕ) : FVec Ideal Row .f32 :=
  if n = 0 then x else if n = 1 then l0 else if n = 2 then l1 else l2

/-- The first row index of the `n`-th strictly-lower-triangular pair: 1, 2, 2, 3, 3, 3. -/
def hi (n : ℕ) : ℕ := if n = 0 then 1 else if n = 1 then 2 else if n = 2 then 2 else 3
/-- Its second: 0, 0, 1, 0, 1, 2. -/
def lo (n : ℕ) : ℕ := if n = 0 then 0 else if n = 1 then 0 else if n = 2 then 1 else if n = 3 then 0 else if n = 4 then 1 else 2

/-- The six pairwise products: entry `n` is the dot product of rows `lo n` and `hi n` of the stacked array. -/
def pairs (x l0 l1 l2 : FVec Ideal Row .f32) : FVec Ideal Six .f32 :=
  fun j => dot (row x l0 l1 l2 (lo (j 1).val)) (row x l0 l1 l2 (hi (j 1).val))

/-- A row read at a position given as a natural number (zero past the end, which no use reaches). -/
def rd (a : FVec Ideal Row .f32) (n : ℕ) : EReal := if h : n < 16777216 then a (ix2 0 ⟨n, h⟩) else 0

/-- The dot product over positions as natural numbers. -/
theorem dot_eq_sum_rd (a b : FVec Ideal Row .f32) : dot a b = ∑ k : Fin 16777216, rd a k.val * rd b k.val := by
  unfold dot rd
  exact Finset.sum_congr rfl fun k _ => by rw [dif_pos k.isLt, dif_pos k.isLt]

/-- One staged block: 4096 rows of 128 lanes. -/
abbrev Blk : Shape := ⟨2, ![4096, 128]⟩
/-- One accumulator cell. -/
abbrev One : Shape := ⟨2, ![1, 1]⟩

/-- The sum of all 4096 x 128 products of two blocks, rows outermost. -/
def bdot (u v : FVec Ideal Blk .f32) : EReal := ∑ r : Fin 4096, ∑ l : Fin 128, u (ix2 r l) * v (ix2 r l)

end Cert.Spec

end
-- ==== Proof.KI.Pay.lean ====
import proofs.«175682_j70781061038447_1_alg».proof.Proof.Gen.KernelIdeal.Skeleton
import proofs.«175682_j70781061038447_1_alg».proof.Proof.Spec
import Idealize.ShloMosaic.Lib.ValueIdx
import Idealize.ShloMosaic.Lib.Pipeline.Value
import Idealize.ShloMosaic.Lib.ValueLayout
import Idealize.ShloMosaic.PureOps.Ideal.Laws

/-!
  The kernel's arithmetic on the extended reals. Each of the six accumulator updates adds, to the
  1 x 1 accumulator cell, the sum of all 4096 x 128 products of two staged blocks: the products are
  summed over the 128 lanes of each row, the 4096 row sums are set in a column, the column is summed,
  and the one number is set in a 1 x 1 cell. Here that two-step sum is read as the double sum
  Σ r, Σ l over rows and lanes, and the six first-step stores are read as the zero cell.
-/

noncomputable section

open scoped BigOperators

namespace Cert.KernelIdeal.Hand

open Cert.KernelIdeal Cert.KernelIdeal.Gen Idealize.ShloMosaic Idealize.ShloMosaic.ValueIdx
open Cert.Spec (bdot)

/-! ## Indices and the two re-layings -/

/-- The one index of a 1 x 1 array is (0, 0). -/
theorem idx11 (j : S1x1.Idx) : j = ix2 (0 : Fin 1) (0 : Fin 1) :=
  Shape.idx_ext₂
    (by have := idx2_lt0 j; show (j 0).val = 0; omega)
    (by have := idx2_lt1 j; show (j 1).val = 0; omega)

/-- A length-4096 vector re-laid as a 4096 x 1 column reads, at (r, u), the vector at r: both have
    row-major position r. -/
theorem col_apply {α : Type} (x : S4096.Idx → α) (h : S4096.ShapeCasts S4096x1) (r : Fin 4096) (u : Fin 1) :
    shapeCast S4096x1 x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

/-- A length-1 vector re-laid as a 1 x 1 array reads, at (a, b), the vector at b. -/
theorem one_apply {α : Type} (x : S1.Idx → α) (h : S1.ShapeCasts S1x1) (a b : Fin 1) :
    shapeCast S1x1 x h (ix2 a b) = x (ix1 b) :=
  shapeCast_a_1a_apply x h a b

/-! ## The two sums -/

/-- The sum over the 128 lanes of a 4096 x 128 block, read at row r: the index (r) with lane l put
    back on axis 1 is (r, l). -/
theorem lane_sum (w : FVec Ideal S4096x128 .f32) (h : S4096x128.Reduces [1] S4096) (hφ : FKind.Formats .f32)
    (hacc : (0x00000000#32 : BitVec 32) = FKind.add.neutral .f32 hφ) (r : Fin 4096) :
    multiReduction (F := Ideal) .add [1] S4096 w 0x00000000#32 h hφ hacc (ix1 r) = ∑ l : Fin 128, w (ix2 r l) :=
  (Ideal.multiReduction_add_single w _ h hφ hacc (ix1 r)).trans
    (Finset.sum_congr rfl fun l _ => congrArg w (Shape.idx_ext₂ rfl rfl))

/-- The sum over the 4096 rows of a 4096 x 1 column, read at its one index: the index (b) with row r
    put back on axis 0 is (r, b). -/
theorem row_sum (c : FVec Ideal S4096x1 .f32) (h : S4096x1.Reduces [0] S1) (hφ : FKind.Formats .f32)
    (hacc : (0x00000000#32 : BitVec 32) = FKind.add.neutral .f32 hφ) (b : Fin 1) :
    multiReduction (F := Ideal) .add [0] S1 c 0x00000000#32 h hφ hacc (ix1 b) = ∑ r : Fin 4096, c (ix2 r b) :=
  (Ideal.multiReduction_add_single c _ h hφ hacc (ix1 b)).trans
    (Finset.sum_congr rfl fun r _ => congrArg c (Shape.idx_ext₂ rfl rfl))

/-! ## The shared tail -/

/-- Lanes first, then rows: the two-step sum of a 4096 x 128 block, set in a 1 x 1 cell, is the
    double sum over rows and lanes. -/
theorem two_step_sum (w : FVec Ideal S4096x128 .f32)
    (h1 : S4096x128.Reduces [1] S4096) (c1 : S4096.ShapeCasts S4096x1)
    (h0 : S4096x1.Reduces [0] S1) (c0 : S1.ShapeCasts S1x1) (hφ : FKind.Formats .f32)
    (hacc : (0x00000000#32 : BitVec 32) = FKind.add.neutral .f32 hφ) (a b : Fin 1) :
    shapeCast S1x1
        (multiReduction (F := Ideal) .add [0] S1
          (shapeCast S4096x1 (multiReduction (F := Ideal) .add [1] S4096 w 0x00000000#32 h1 hφ hacc) c1)
          0x00000000#32 h0 hφ hacc) c0 (ix2 a b)
      = ∑ r : Fin 4096, ∑ l : Fin 128, w (ix2 r l) :=
  (one_apply _ c0 a b).trans <| (row_sum _ h0 hφ hacc b).trans <|
    Finset.sum_congr rfl fun r _ => (col_apply _ c1 r b).trans (lane_sum w h1 hφ hacc r)

/-- The accumulator cell plus the two-step sum of a block: at every index of the 1 x 1 result it is
    the accumulator at (0, 0) plus the double sum over rows and lanes of the block. -/
theorem acc_tail (acc : FVec Ideal S1x1 .f32) (w : FVec Ideal S4096x128 .f32)
    (h1 : S4096x128.Reduces [1] S4096) (c1 : S4096.ShapeCasts S4096x1)
    (h0 : S4096x1.Reduces [0] S1) (c0 : S1.ShapeCasts S1x1) (hφ : FKind.Formats .f32)
    (hacc : (0x00000000#32 : BitVec 32) = FKind.add.neutral .f32 hφ) :
    addf acc
        (shapeCast S1x1
          (multiReduction (F := Ideal) .add [0] S1
            (shapeCast S4096x1 (multiReduction (F := Ideal) .add [1] S4096 w 0x00000000#32 h1 hφ hacc) c1)
            0x00000000#32 h0 hφ hacc) c0)
      = fun _ => acc (ix2 0 0) + ∑ r : Fin 4096, ∑ l : Fin 128, w (ix2 r l) := by
  funext j
  obtain rfl := idx11 j
  exact (addf_apply _ _ _).trans (congrArg (acc (ix2 0 0) + ·) (two_step_sum w h1 c1 h0 c0 hφ hacc 0 0))

/-- The product of two blocks summed over rows and lanes is the blocks' dot product. -/
theorem sum_mulf (u v : FVec Ideal S4096x128 .f32) :
    (∑ r : Fin 4096, ∑ l : Fin 128, mulf u v (ix2 r l)) = bdot u v := rfl

/-! ## The payloads -/

/-- The first step's store into accumulator 0 is the zero cell. -/
theorem pay1_eq : k0_pay1 (F := Ideal) = fun _ => (0 : EReal) := funext fun _ => Ideal.ofBits_zero_f32
/-- The first step's store into accumulator 1 is the zero cell. -/
theorem pay2_eq : k0_pay2 (F := Ideal) = fun _ => (0 : EReal) := funext fun _ => Ideal.ofBits_zero_f32
/-- The first step's store into accumulator 2 is the zero cell. -/
theorem pay3_eq : k0_pay3 (F := Ideal) = fun _ => (0 : EReal) := funext fun _ => Ideal.ofBits_zero_f32
/-- The first step's store into accumulator 3 is the zero cell. -/
theorem pay4_eq : k0_pay4 (F := Ideal) = fun _ => (0 : EReal) := funext fun _ => Ideal.ofBits_zero_f32
/-- The first step's store into accumulator 4 is the zero cell. -/
theorem pay5_eq : k0_pay5 (F := Ideal) = fun _ => (0 : EReal) := funext fun _ => Ideal.ofBits_zero_f32
/-- The first step's store into accumulator 5 is the zero cell. -/
theorem pay6_eq : k0_pay6 (F := Ideal) = fun _ => (0 : EReal) := funext fun _ => Ideal.ofBits_zero_f32

/-- A loaded block re-laid to its own shape is the block (the first staged block). -/
theorem pay7_eq (v3 : Vec Ideal S4096x128 .f32) : k0_pay7 (F := Ideal) v3 = v3 := shapeCast_self v3 _
/-- The second staged block likewise. -/
theorem pay8_eq (v5 : Vec Ideal S4096x128 .f32) : k0_pay8 (F := Ideal) v5 = v5 := shapeCast_self v5 _
/-- The third staged block likewise. -/
theorem pay9_eq (v7 : Vec Ideal S4096x128 .f32) : k0_pay9 (F := Ideal) v7 = v7 := shapeCast_self v7 _
/-- The fourth staged block likewise. -/
theorem pay10_eq (v9 : Vec Ideal S4096x128 .f32) : k0_pay10 (F := Ideal) v9 = v9 := shapeCast_self v9 _
/-- A loaded accumulator cell re-laid to its own shape is the cell. -/
theorem pay13_eq (v29 : Vec Ideal S1x1 .f32) : k0_pay13 (F := Ideal) v29 = v29 := shapeCast_self v29 _
/-- The product of the second and third blocks. -/
theorem pay14_eq (v5 v7 : Vec Ideal S4096x128 .f32) : k0_pay14 (F := Ideal) v5 v7 = mulf (F := Ideal) v5 v7 := by
  unfold k0_pay14; rw [pay8_eq, pay9_eq]

/-- Accumulator 0 (first with second block). -/
theorem pay11_eq (v3 v5 : Vec Ideal S4096x128 .f32) (v11 : Vec Ideal S1x1 .f32) :
    k0_pay11 (F := Ideal) v3 v5 v11 = fun _ => v11 (ix2 0 0) + bdot v3 v5 := by
  unfold k0_pay11
  rw [pay7_eq, pay8_eq, shapeCast_self]
  exact acc_tail v11 (mulf (F := Ideal) v3 v5) _ _ _ _ _ _

/-- Accumulator 1 (first with third block). -/
theorem pay12_eq (v3 v7 : Vec Ideal S4096x128 .f32) (v20 : Vec Ideal S1x1 .f32) :
    k0_pay12 (F := Ideal) v3 v7 v20 = fun _ => v20 (ix2 0 0) + bdot v3 v7 := by
  unfold k0_pay12
  rw [pay7_eq, pay9_eq, shapeCast_self]
  exact acc_tail v20 (mulf (F := Ideal) v3 v7) _ _ _ _ _ _

/-- Accumulator 2 (second with third block). -/
theorem pay15_eq (v5 v7 : Vec Ideal S4096x128 .f32) (v29 : Vec Ideal S1x1 .f32) :
    k0_pay15 (F := Ideal) (k0_pay13 v29) (k0_pay14 v5 v7) = fun _ => v29 (ix2 0 0) + bdot v5 v7 := by
  rw [pay13_eq, pay14_eq]
  unfold k0_pay15
  exact acc_tail v29 (mulf (F := Ideal) v5 v7) _ _ _ _ _ _

/-- Accumulator 3 (first with fourth block). -/
theorem pay16_eq (v3 v9 : Vec Ideal S4096x128 .f32) (v38 : Vec Ideal S1x1 .f32) :
    k0_pay16 (F := Ideal) (k0_pay7 v3) (k0_pay10 v9) v38 = fun _ => v38 (ix2 0 0) + bdot v3 v9 := by
  rw [pay7_eq, pay10_eq]
  unfold k0_pay16
  rw [shapeCast_self]
  exact acc_tail v38 (mulf (F := Ideal) v3 v9) _ _ _ _ _ _

/-- Accumulator 4 (second with fourth block). -/
theorem pay17_eq (v5 v9 : Vec Ideal S4096x128 .f32) (v47 : Vec Ideal S1x1 .f32) :
    k0_pay17 (F := Ideal) (k0_pay8 v5) (k0_pay10 v9) v47 = fun _ => v47 (ix2 0 0) + bdot v5 v9 := by
  rw [pay8_eq, pay10_eq]
  unfold k0_pay17
  rw [shapeCast_self]
  exact acc_tail v47 (mulf (F := Ideal) v5 v9) _ _ _ _ _ _

/-- Accumulator 5 (third with fourth block). -/
theorem pay18_eq (v7 v9 : Vec Ideal S4096x128 .f32) (v56 : Vec Ideal S1x1 .f32) :
    k0_pay18 (F := Ideal) (k0_pay9 v7) (k0_pay10 v9) v56 = fun _ => v56 (ix2 0 0) + bdot v7 v9 := by
  rw [pay9_eq, pay10_eq]
  unfold k0_pay18
  rw [shapeCast_self]
  exact acc_tail v56 (mulf (F := Ideal) v7 v9) _ _ _ _ _ _

end Cert.KernelIdeal.Hand

end
-- ==== Proof.KI.Acc.lean ====
/-
  Each accumulator after point n is the sum, over the points 0 to n, of the product sums of its two
  rows' blocks: by induction on the point (the first point adds to the zero it stored, every later
  point to what the point before left).
-/
import proofs.«175682_j70781061038447_1_alg».proof.Proof.KI.Steps
import proofs.«175682_j70781061038447_1_alg».proof.Proof.KI.Pay
import proofs.«175682_j70781061038447_1_alg».proof.Proof.Spec

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen
open Cert.Spec (bdot)

variable (m : (ℓ : Loc nD τ sig) → Buf (Elt Ideal) ℓ) (ρ : Dev nD → PrngReg)

/-- The product sum of two rows' blocks at point `s` (zero past the grid, which no use reaches). -/
def bd (u v : Fin cfg0.N → Vec Ideal S4096x128 .f32) (s : ℕ) : EReal :=
  if h : s < cfg0.N then bdot (u ⟨s, h⟩) (v ⟨s, h⟩) else 0

/-- The running sum after point `n`, as a (1,1) value. -/
def runTo (u v : Fin cfg0.N → Vec Ideal S4096x128 .f32) (n : ℕ) : Vec Ideal S1x1 .f32 :=
  fun _ => ∑ s ∈ Finset.range (n + 1), bd u v s

theorem acc_4 (c : Dev nD) : ∀ (n : ℕ) (hn : n < cfg0.N),
    (outsAt0 (F := Ideal) m c n hn).1 = runTo (blk0 m c) (blk1 m c) n
  | 0, hn => by
    refine (stepA_4 (F := Ideal) m c ⟨0, hn⟩ (Nat.zero_mod _)).trans ?_
    rw [pay11_eq, pay1_eq]
    funext j
    simp only [runTo, bd, Finset.sum_range_one, dif_pos hn, zero_add]
  | n + 1, hn => by
    have hN : cfg0.N = 32 := N_0
    have h0 : ¬(⟨n + 1, hn⟩ : Fin cfg0.N).val % 32 = 0 := by dsimp only; omega
    refine (stepB_4 (F := Ideal) m c ⟨n + 1, hn⟩ h0).trans ?_
    rw [pay11_eq]
    have hp : (outsAt0 (F := Ideal) m c ((⟨n + 1, hn⟩ : Fin cfg0.N).val - 1) (Nat.lt_of_le_of_lt (Nat.sub_le _ _) (⟨n + 1, hn⟩ : Fin cfg0.N).isLt)).1
        = runTo (blk0 m c) (blk1 m c) n := acc_4 c n (Nat.lt_of_succ_lt hn)
    rw [hp]
    funext j
    simp only [runTo, bd, Finset.sum_range_succ _ (n + 1), dif_pos hn]

theorem acc_5 (c : Dev nD) : ∀ (n : ℕ) (hn : n < cfg0.N),
    (outsAt0 (F := Ideal) m c n hn).2.1 = runTo (blk0 m c) (blk2 m c) n
  | 0, hn => by
    refine (stepA_5 (F := Ideal) m c ⟨0, hn⟩ (Nat.zero_mod _)).trans ?_
    rw [pay12_eq, pay2_eq]
    funext j
    simp only [runTo, bd, Finset.sum_range_one, dif_pos hn, zero_add]
  | n + 1, hn => by
    have hN : cfg0.N = 32 := N_0
    have h0 : ¬(⟨n + 1, hn⟩ : Fin cfg0.N).val % 32 = 0 := by dsimp only; omega
    refine (stepB_5 (F := Ideal) m c ⟨n + 1, hn⟩ h0).trans ?_
    rw [pay12_eq]
    have hp : (outsAt0 (F := Ideal) m c ((⟨n + 1, hn⟩ : Fin cfg0.N).val - 1) (Nat.lt_of_le_of_lt (Nat.sub_le _ _) (⟨n + 1, hn⟩ : Fin cfg0.N).isLt)).2.1
        = runTo (blk0 m c) (blk2 m c) n := acc_5 c n (Nat.lt_of_succ_lt hn)
    rw [hp]
    funext j
    simp only [runTo, bd, Finset.sum_range_succ _ (n + 1), dif_pos hn]

theorem acc_6 (c : Dev nD) : ∀ (n : ℕ) (hn : n < cfg0.N),
    (outsAt0 (F := Ideal) m c n hn).2.2.1 = runTo (blk1 m c) (blk2 m c) n
  | 0, hn => by
    refine (stepA_6 (F := Ideal) m c ⟨0, hn⟩ (Nat.zero_mod _)).trans ?_
    rw [pay15_eq, pay3_eq]
    funext j
    simp only [runTo, bd, Finset.sum_range_one, dif_pos hn, zero_add]
  | n + 1, hn => by
    have hN : cfg0.N = 32 := N_0
    have h0 : ¬(⟨n + 1, hn⟩ : Fin cfg0.N).val % 32 = 0 := by dsimp only; omega
    refine (stepB_6 (F := Ideal) m c ⟨n + 1, hn⟩ h0).trans ?_
    rw [pay15_eq]
    have hp : (outsAt0 (F := Ideal) m c ((⟨n + 1, hn⟩ : Fin cfg0.N).val - 1) (Nat.lt_of_le_of_lt (Nat.sub_le _ _) (⟨n + 1, hn⟩ : Fin cfg0.N).isLt)).2.2.1
        = runTo (blk1 m c) (blk2 m c) n := acc_6 c n (Nat.lt_of_succ_lt hn)
    rw [hp]
    funext j
    simp only [runTo, bd, Finset.sum_range_succ _ (n + 1), dif_pos hn]

theorem acc_7 (c : Dev nD) : ∀ (n : ℕ) (hn : n < cfg0.N),
    (outsAt0 (F := Ideal) m c n hn).2.2.2.1 = runTo (blk0 m c) (blk3 m c) n
  | 0, hn => by
    refine (stepA_7 (F := Ideal) m c ⟨0, hn⟩ (Nat.zero_mod _)).trans ?_
    rw [pay16_eq, pay4_eq]
    funext j
    simp only [runTo, bd, Finset.sum_range_one, dif_pos hn, zero_add]
  | n + 1, hn => by
    have hN : cfg0.N = 32 := N_0
    have h0 : ¬(⟨n + 1, hn⟩ : Fin cfg0.N).val % 32 = 0 := by dsimp only; omega
    refine (stepB_7 (F := Ideal) m c ⟨n + 1, hn⟩ h0).trans ?_
    rw [pay16_eq]
    have hp : (outsAt0 (F := Ideal) m c ((⟨n + 1, hn⟩ : Fin cfg0.N).val - 1) (Nat.lt_of_le_of_lt (Nat.sub_le _ _) (⟨n + 1, hn⟩ : Fin cfg0.N).isLt)).2.2.2.1
        = runTo (blk0 m c) (blk3 m c) n := acc_7 c n (Nat.lt_of_succ_lt hn)
    rw [hp]
    funext j
    simp only [runTo, bd, Finset.sum_range_succ _ (n + 1), dif_pos hn]

theorem acc_8 (c : Dev nD) : ∀ (n : ℕ) (hn : n < cfg0.N),
    (outsAt0 (F := Ideal) m c n hn).2.2.2.2.1 = runTo (blk1 m c) (blk3 m c) n
  | 0, hn => by
    refine (stepA_8 (F := Ideal) m c ⟨0, hn⟩ (Nat.zero_mod _)).trans ?_
    rw [pay17_eq, pay5_eq]
    funext j
    simp only [runTo, bd, Finset.sum_range_one, dif_pos hn, zero_add]
  | n + 1, hn => by
    have hN : cfg0.N = 32 := N_0
    have h0 : ¬(⟨n + 1, hn⟩ : Fin cfg0.N).val % 32 = 0 := by dsimp only; omega
    refine (stepB_8 (F := Ideal) m c ⟨n + 1, hn⟩ h0).trans ?_
    rw [pay17_eq]
    have hp : (outsAt0 (F := Ideal) m c ((⟨n + 1, hn⟩ : Fin cfg0.N).val - 1) (Nat.lt_of_le_of_lt (Nat.sub_le _ _) (⟨n + 1, hn⟩ : Fin cfg0.N).isLt)).2.2.2.2.1
        = runTo (blk1 m c) (blk3 m c) n := acc_8 c n (Nat.lt_of_succ_lt hn)
    rw [hp]
    funext j
    simp only [runTo, bd, Finset.sum_range_succ _ (n + 1), dif_pos hn]

theorem acc_9 (c : Dev nD) : ∀ (n : ℕ) (hn : n < cfg0.N),
    (outsAt0 (F := Ideal) m c n hn).2.2.2.2.2 = runTo (blk2 m c) (blk3 m c) n
  | 0, hn => by
    refine (stepA_9 (F := Ideal) m c ⟨0, hn⟩ (Nat.zero_mod _)).trans ?_
    rw [pay18_eq, pay6_eq]
    funext j
    simp only [runTo, bd, Finset.sum_range_one, dif_pos hn, zero_add]
  | n + 1, hn => by
    have hN : cfg0.N = 32 := N_0
    have h0 : ¬(⟨n + 1, hn⟩ : Fin cfg0.N).val % 32 = 0 := by dsimp only; omega
    refine (stepB_9 (F := Ideal) m c ⟨n + 1, hn⟩ h0).trans ?_
    rw [pay18_eq]
    have hp : (outsAt0 (F := Ideal) m c ((⟨n + 1, hn⟩ : Fin cfg0.N).val - 1) (Nat.lt_of_le_of_lt (Nat.sub_le _ _) (⟨n + 1, hn⟩ : Fin cfg0.N).isLt)).2.2.2.2.2
        = runTo (blk2 m c) (blk3 m c) n := acc_9 c n (Nat.lt_of_succ_lt hn)
    rw [hp]
    funext j
    simp only [runTo, bd, Finset.sum_range_succ _ (n + 1), dif_pos hn]

end Cert.KernelIdeal.Hand

end
-- ==== Proof.KI.Blocks.lean ====
/-
  Reading an input block at an index. Each of the four arguments is a row of 16777216 numbers; the region
  finds it re-laid as 131072 rows of 128 lanes, and at grid point `t` (of 32) the window stages rows
  4096 t to 4096 t + 4095 of that array. So entry (r, l) of block `t` is entry
  (4096 t + r) * 128 + l of the row: row-major position is kept by the re-laying, and the block's
  coordinate on each axis is block index times block extent plus the coordinate inside the block.
-/
import proofs.«175682_j70781061038447_1_alg».proof.Proof.KI.Blk
import proofs.«175682_j70781061038447_1_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.ShloMosaic.ValueIdx
open Idealize.ShloMosaic.Pipeline (Dat Cfg Window BodyObligation cellOf)
open Cert.KernelIdeal.Gen

variable (m : (ℓ : Loc nD τ sig) → Buf (Elt Ideal) ℓ)

/-! ## The re-laying at an index -/

/-- Entry (R, l) of the 131072 x 128 re-laying of a row is the row's entry R * 128 + l: both have row-major
    position R * 128 + l. -/
theorem relaid_apply (a : FVec Ideal Cert.Spec.Row .f32) (R : Fin 131072) (l : Fin 128) :
    shapeCast S131072x128 a shapeCasts_S1x16777216_S131072x128 (ix2 R l) = Cert.Spec.rd a (R.val * 128 + l.val) := by
  have hR := R.isLt
  have hl := l.isLt
  have hb : R.val * 128 + l.val < 16777216 := by omega
  unfold Cert.Spec.rd
  rw [dif_pos hb]
  refine shapeCast_apply _ _ _ (ix2 0 ⟨R.val * 128 + l.val, hb⟩) ?_
  rw [Shape.rowMajor_val_two, Shape.rowMajor_val_two]
  show 0 * 16777216 + (R.val * 128 + l.val) = R.val * 128 + l.val
  omega

/-! ## Window 0 -/

/-- Window 0's block index at grid point `t` is (t, 0). -/
theorem blockIndex0 : ∀ t : Fin cfg0.N, win0_0.index t (0 : Fin 2) = t.val ∧ win0_0.index t (1 : Fin 2) = 0 :=
  (by decide +kernel : ∀ t : Fin grid0.N, _)

/-- The array window 0 reads, as the region finds it, is argument 0 re-laid as 131072 x 128. -/
theorem relaid0 (c : Dev nD) : (V m c main_v0 : S131072x128.Idx → EReal)
    = shapeCast S131072x128 (m ((c : Thread nD τ).loc main_arg0)) shapeCasts_S1x16777216_S131072x128 := by
  dsimp only [V, V0]
  simp only [hostOps0, List.flatten_cons, List.flatten_nil, List.append_nil]
  after_results
  rfl

/-- Entry (r, l) of window 0's block at point `t` is entry (4096 t + r) * 128 + l of argument 0. -/
theorem blk0_apply (c : Dev nD) (t : Fin cfg0.N) (r : Fin 4096) (l : Fin 128) :
    blk0 (F := Ideal) m c t (ix2 r l) = Cert.Spec.rd (m ((c : Thread nD τ).loc main_arg0)) ((t.val * 4096 + r.val) * 128 + l.val) := by
  have ht : t.val < 32 := lt_of_lt_of_eq t.isLt N_0
  have hr := r.isLt
  have hl := l.isLt
  have hR : t.val * 4096 + r.val < 131072 := by omega
  obtain ⟨e0, e1⟩ := blockIndex0 t
  refine Eq.trans ?_ (relaid_apply (m ((c : Thread nD τ).loc main_arg0)) ⟨t.val * 4096 + r.val, hR⟩ l)
  show V m c main_v0 (((cfg0.win 0).blk t).view.emb (ix2 r l)) = _
  rw [relaid0]
  congr 1
  funext a
  apply Fin.ext
  match a with
  | ⟨0, _⟩ => show win0_0.index t (0 : Fin 2) * 4096 + 1 * r.val = t.val * 4096 + r.val; rw [e0]; omega
  | ⟨1, _⟩ => show win0_0.index t (1 : Fin 2) * 128 + 1 * l.val = l.val; rw [e1]; omega

/-! ## Window 1 -/

/-- Window 1's block index at grid point `t` is (t, 0). -/
theorem blockIndex1 : ∀ t : Fin cfg0.N, win0_1.index t (0 : Fin 2) = t.val ∧ win0_1.index t (1 : Fin 2) = 0 :=
  (by decide +kernel : ∀ t : Fin grid0.N, _)

/-- The array window 1 reads, as the region finds it, is argument 1 re-laid as 131072 x 128. -/
theorem relaid1 (c : Dev nD) : (V m c main_v1 : S131072x128.Idx → EReal)
    = shapeCast S131072x128 (m ((c : Thread nD τ).loc main_arg1)) shapeCasts_S1x16777216_S131072x128 := by
  dsimp only [V, V0]
  simp only [hostOps0, List.flatten_cons, List.flatten_nil, List.append_nil]
  after_results
  rfl

/-- Entry (r, l) of window 1's block at point `t` is entry (4096 t + r) * 128 + l of argument 1. -/
theorem blk1_apply (c : Dev nD) (t : Fin cfg0.N) (r : Fin 4096) (l : Fin 128) :
    blk1 (F := Ideal) m c t (ix2 r l) = Cert.Spec.rd (m ((c : Thread nD τ).loc main_arg1)) ((t.val * 4096 + r.val) * 128 + l.val) := by
  have ht : t.val < 32 := lt_of_lt_of_eq t.isLt N_0
  have hr := r.isLt
  have hl := l.isLt
  have hR : t.val * 4096 + r.val < 131072 := by omega
  obtain ⟨e0, e1⟩ := blockIndex1 t
  refine Eq.trans ?_ (relaid_apply (m ((c : Thread nD τ).loc main_arg1)) ⟨t.val * 4096 + r.val, hR⟩ l)
  show V m c main_v1 (((cfg0.win 1).blk t).view.emb (ix2 r l)) = _
  rw [relaid1]
  congr 1
  funext a
  apply Fin.ext
  match a with
  | ⟨0, _⟩ => show win0_1.index t (0 : Fin 2) * 4096 + 1 * r.val = t.val * 4096 + r.val; rw [e0]; omega
  | ⟨1, _⟩ => show win0_1.index t (1 : Fin 2) * 128 + 1 * l.val = l.val; rw [e1]; omega

/-! ## Window 2 -/

/-- Window 2's block index at grid point `t` is (t, 0). -/
theorem blockIndex2 : ∀ t : Fin cfg0.N, win0_2.index t (0 : Fin 2) = t.val ∧ win0_2.index t (1 : Fin 2) = 0 :=
  (by decide +kernel : ∀ t : Fin grid0.N, _)

/-- The array window 2 reads, as the region finds it, is argument 2 re-laid as 131072 x 128. -/
theorem relaid2 (c : Dev nD) : (V m c main_v2 : S131072x128.Idx → EReal)
    = shapeCast S131072x128 (m ((c : Thread nD τ).loc main_arg2)) shapeCasts_S1x16777216_S131072x128 := by
  dsimp only [V, V0]
  simp only [hostOps0, List.flatten_cons, List.flatten_nil, List.append_nil]
  after_results
  rfl

/-- Entry (r, l) of window 2's block at point `t` is entry (4096 t + r) * 128 + l of argument 2. -/
theorem blk2_apply (c : Dev nD) (t : Fin cfg0.N) (r : Fin 4096) (l : Fin 128) :
    blk2 (F := Ideal) m c t (ix2 r l) = Cert.Spec.rd (m ((c : Thread nD τ).loc main_arg2)) ((t.val * 4096 + r.val) * 128 + l.val) := by
  have ht : t.val < 32 := lt_of_lt_of_eq t.isLt N_0
  have hr := r.isLt
  have hl := l.isLt
  have hR : t.val * 4096 + r.val < 131072 := by omega
  obtain ⟨e0, e1⟩ := blockIndex2 t
  refine Eq.trans ?_ (relaid_apply (m ((c : Thread nD τ).loc main_arg2)) ⟨t.val * 4096 + r.val, hR⟩ l)
  show V m c main_v2 (((cfg0.win 2).blk t).view.emb (ix2 r l)) = _
  rw [relaid2]
  congr 1
  funext a
  apply Fin.ext
  match a with
  | ⟨0, _⟩ => show win0_2.index t (0 : Fin 2) * 4096 + 1 * r.val = t.val * 4096 + r.val; rw [e0]; omega
  | ⟨1, _⟩ => show win0_2.index t (1 : Fin 2) * 128 + 1 * l.val = l.val; rw [e1]; omega

/-! ## Window 3 -/

/-- Window 3's block index at grid point `t` is (t, 0). -/
theorem blockIndex3 : ∀ t : Fin cfg0.N, win0_3.index t (0 : Fin 2) = t.val ∧ win0_3.index t (1 : Fin 2) = 0 :=
  (by decide +kernel : ∀ t : Fin grid0.N, _)

/-- The array window 3 reads, as the region finds it, is argument 3 re-laid as 131072 x 128. -/
theorem relaid3 (c : Dev nD) : (V m c main_v3 : S131072x128.Idx → EReal)
    = shapeCast S131072x128 (m ((c : Thread nD τ).loc main_arg3)) shapeCasts_S1x16777216_S131072x128 := by
  dsimp only [V, V0]
  simp only [hostOps0, List.flatten_cons, List.flatten_nil, List.append_nil]
  after_results
  rfl

/-- Entry (r, l) of window 3's block at point `t` is entry (4096 t + r) * 128 + l of argument 3. -/
theorem blk3_apply (c : Dev nD) (t : Fin cfg0.N) (r : Fin 4096) (l : Fin 128) :
    blk3 (F := Ideal) m c t (ix2 r l) = Cert.Spec.rd (m ((c : Thread nD τ).loc main_arg3)) ((t.val * 4096 + r.val) * 128 + l.val) := by
  have ht : t.val < 32 := lt_of_lt_of_eq t.isLt N_0
  have hr := r.isLt
  have hl := l.isLt
  have hR : t.val * 4096 + r.val < 131072 := by omega
  obtain ⟨e0, e1⟩ := blockIndex3 t
  refine Eq.trans ?_ (relaid_apply (m ((c : Thread nD τ).loc main_arg3)) ⟨t.val * 4096 + r.val, hR⟩ l)
  show V m c main_v3 (((cfg0.win 3).blk t).view.emb (ix2 r l)) = _
  rw [relaid3]
  congr 1
  funext a
  apply Fin.ext
  match a with
  | ⟨0, _⟩ => show win0_3.index t (0 : Fin 2) * 4096 + 1 * r.val = t.val * 4096 + r.val; rw [e0]; omega
  | ⟨1, _⟩ => show win0_3.index t (1 : Fin 2) * 128 + 1 * l.val = l.val; rw [e1]; omega

end Cert.KernelIdeal.Hand

end
-- ==== Proof.SumSplit.lean ====
import Mathlib.Algebra.BigOperators.Fin
import Mathlib.Data.Fintype.BigOperators
import Mathlib.Logic.Equiv.Fin.Basic
import Mathlib.Tactic.NormNum.Basic
import Mathlib.Tactic.Ring

/-!
# Splitting a sum over a long row into blocks, rows and lanes

A natural number `k < m * n` is written uniquely as `k = a * n + b` with `a < m` and `b < n`.
Hence a sum over `k < m * n` is the iterated sum over `a < m` and `b < n` of the term at
`a * n + b`.  Applying this twice, with `16777216 = 32 * 4096 * 128`, a sum over all positions
of a row of `16777216` entries is the sum block by block (`t < 32`), row by row (`r < 4096`)
and lane by lane (`l < 128`) of the term at `(t * 4096 + r) * 128 + l`.
-/

namespace Cert.Spec

open BigOperators

/-- Two-level split: the bijection `(a, b) ↦ a * n + b` from `Fin m × Fin n` onto `Fin (m * n)`
turns the iterated sum into a single sum. -/
theorem sum_fin_mul {M : Type*} [AddCommMonoid M] (m n : ℕ) (g : ℕ → M) :
    ∑ a : Fin m, ∑ b : Fin n, g (a.val * n + b.val) = ∑ k : Fin (m * n), g k.val := by
  calc ∑ a : Fin m, ∑ b : Fin n, g (a.val * n + b.val)
      = ∑ p : Fin m × Fin n, g (p.1.val * n + p.2.val) :=
        (Fintype.sum_prod_type (fun p : Fin m × Fin n => g (p.1.val * n + p.2.val))).symm
    _ = ∑ p : Fin m × Fin n, g (finProdFinEquiv p).val := by
        refine Fintype.sum_congr _ _ (fun p => ?_)
        -- the bijection sends `(a, b)` to `b + n * a`, which is `a * n + b`
        have h : p.1.val * n + p.2.val = (finProdFinEquiv p).val := by
          simp only [finProdFinEquiv_apply_val]; ring
        rw [h]
    _ = ∑ k : Fin (m * n), g k.val :=
        Equiv.sum_comp finProdFinEquiv (fun k : Fin (m * n) => g k.val)

/-- A sum over all positions of a row of `16777216 = 32 * 4096 * 128` entries is the sum block by
block, row by row, lane by lane. -/
theorem sum_blocks {M : Type*} [AddCommMonoid M] (f : ℕ → M) :
    ∑ t : Fin 32, ∑ r : Fin 4096, ∑ l : Fin 128, f ((t.val * 4096 + r.val) * 128 + l.val)
      = ∑ k : Fin 16777216, f k.val := by
  -- first merge the block index `t` and the row index `r` into `j = t * 4096 + r < 32 * 4096`
  have h1 : ∑ t : Fin 32, ∑ r : Fin 4096, ∑ l : Fin 128,
        f ((t.val * 4096 + r.val) * 128 + l.val)
      = ∑ j : Fin (32 * 4096), ∑ l : Fin 128, f (j.val * 128 + l.val) :=
    sum_fin_mul 32 4096 (fun j => ∑ l : Fin 128, f (j * 128 + l.val))
  -- then merge `j` and the lane index `l` into `k = j * 128 + l < 32 * 4096 * 128`
  have h2 : ∑ j : Fin (32 * 4096), ∑ l : Fin 128, f (j.val * 128 + l.val)
      = ∑ k : Fin (32 * 4096 * 128), f k.val :=
    sum_fin_mul (32 * 4096) 128 f
  -- finally `32 * 4096 * 128 = 16777216`
  have h3 : ∑ k : Fin (32 * 4096 * 128), f k.val = ∑ k : Fin 16777216, f k.val :=
    Equiv.sum_comp (finCongr (by norm_num : 32 * 4096 * 128 = 16777216))
      (fun k : Fin 16777216 => f k.val)
  rw [h1, h2, h3]

/-- The same split for a sum of products: it is `sum_blocks` at `f n = a n * b n`.  Only the
additive structure of `M` and the existence of a product are used. -/
theorem sum_blocks_mul {M : Type*} [AddCommMonoid M] [Mul M] (a b : ℕ → M) :
    ∑ t : Fin 32, (∑ r : Fin 4096, ∑ l : Fin 128,
        a ((t.val * 4096 + r.val) * 128 + l.val) * b ((t.val * 4096 + r.val) * 128 + l.val))
      = ∑ k : Fin 16777216, a k.val * b k.val :=
  sum_blocks (fun n => a n * b n)

end Cert.Spec
-- ==== Proof.KI.Value.lean ====
/-
  The kernel's six values are the six dot products. An accumulator's last value is the sum over the 32
  points of its two rows' block product sums; block `t` of a re-laid row holds the row's positions
  (4096 t + r) 128 + l, so the sum over points, rows and lanes is the sum over all 16777216 positions:
  the rows' dot product. Laid side by side the six are the specification's array.
-/
import proofs.«175682_j70781061038447_1_alg».proof.Proof.KI.Final
import proofs.«175682_j70781061038447_1_alg».proof.Proof.KI.Acc
import proofs.«175682_j70781061038447_1_alg».proof.Proof.KI.Blocks
import proofs.«175682_j70781061038447_1_alg».proof.Proof.SumSplit
import proofs.«175682_j70781061038447_1_alg».proof.Proof.Spec

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen
open Cert.Spec (bdot)

variable (m : (ℓ : Loc nD τ sig) → Buf (Elt Ideal) ℓ) (ρ : Dev nD → PrngReg)

/-- The sum over the 32 points of the block product sums of two rows is the rows' dot product. -/
theorem total (u v : Fin cfg0.N → Vec Ideal S4096x128 .f32) (a b : FVec Ideal Cert.Spec.Row .f32)
    (hu : ∀ (t : Fin cfg0.N) (r : Fin 4096) (l : Fin 128), u t (ix2 r l) = Cert.Spec.rd a ((t.val * 4096 + r.val) * 128 + l.val))
    (hv : ∀ (t : Fin cfg0.N) (r : Fin 4096) (l : Fin 128), v t (ix2 r l) = Cert.Spec.rd b ((t.val * 4096 + r.val) * 128 + l.val)) :
    ∑ s ∈ Finset.range (31 + 1), bd u v s = Cert.Spec.dot a b := by
  have hN : cfg0.N = 32 := N_0
  rw [Cert.Spec.dot_eq_sum_rd, ← Cert.Spec.sum_blocks_mul (Cert.Spec.rd a) (Cert.Spec.rd b), show (31 + 1) = 32 from rfl, Finset.sum_range]
  refine Finset.sum_congr rfl fun t _ => ?_
  have ht : t.val < cfg0.N := by rw [hN]; exact t.isLt
  simp only [bd, dif_pos ht, Cert.Spec.bdot]
  refine Finset.sum_congr rfl fun r _ => Finset.sum_congr rfl fun l _ => ?_
  rw [hu ⟨t.val, ht⟩ r l, hv ⟨t.val, ht⟩ r l]

theorem fin_4_eq (c : Dev nD) : fin_4 (F := Ideal) m c = fun _ => Cert.Spec.dot (m ((c : Thread nD τ).loc main_arg0)) (m ((c : Thread nD τ).loc main_arg1)) := by
  unfold fin_4
  rw [acc_4 m c t31.val t31.isLt]
  funext j
  exact total (blk0 m c) (blk1 m c) _ _ (blk0_apply m c) (blk1_apply m c)

theorem fin_5_eq (c : Dev nD) : fin_5 (F := Ideal) m c = fun _ => Cert.Spec.dot (m ((c : Thread nD τ).loc main_arg0)) (m ((c : Thread nD τ).loc main_arg2)) := by
  unfold fin_5
  rw [acc_5 m c t31.val t31.isLt]
  funext j
  exact total (blk0 m c) (blk2 m c) _ _ (blk0_apply m c) (blk2_apply m c)

theorem fin_6_eq (c : Dev nD) : fin_6 (F := Ideal) m c = fun _ => Cert.Spec.dot (m ((c : Thread nD τ).loc main_arg1)) (m ((c : Thread nD τ).loc main_arg2)) := by
  unfold fin_6
  rw [acc_6 m c t31.val t31.isLt]
  funext j
  exact total (blk1 m c) (blk2 m c) _ _ (blk1_apply m c) (blk2_apply m c)

theorem fin_7_eq (c : Dev nD) : fin_7 (F := Ideal) m c = fun _ => Cert.Spec.dot (m ((c : Thread nD τ).loc main_arg0)) (m ((c : Thread nD τ).loc main_arg3)) := by
  unfold fin_7
  rw [acc_7 m c t31.val t31.isLt]
  funext j
  exact total (blk0 m c) (blk3 m c) _ _ (blk0_apply m c) (blk3_apply m c)

theorem fin_8_eq (c : Dev nD) : fin_8 (F := Ideal) m c = fun _ => Cert.Spec.dot (m ((c : Thread nD τ).loc main_arg1)) (m ((c : Thread nD τ).loc main_arg3)) := by
  unfold fin_8
  rw [acc_8 m c t31.val t31.isLt]
  funext j
  exact total (blk1 m c) (blk3 m c) _ _ (blk1_apply m c) (blk3_apply m c)

theorem fin_9_eq (c : Dev nD) : fin_9 (F := Ideal) m c = fun _ => Cert.Spec.dot (m ((c : Thread nD τ).loc main_arg2)) (m ((c : Thread nD τ).loc main_arg3)) := by
  unfold fin_9
  rw [acc_9 m c t31.val t31.isLt]
  funext j
  exact total (blk2 m c) (blk3 m c) _ _ (blk2_apply m c) (blk3_apply m c)

/-- The six values side by side are the specification's array. -/
theorem six_eq (c : Dev nD) :
    six (F := Ideal) m c = Cert.Spec.pairs (m ((c : Thread nD τ).loc main_arg0)) (m ((c : Thread nD τ).loc main_arg1)) (m ((c : Thread nD τ).loc main_arg2)) (m ((c : Thread nD τ).loc main_arg3)) := by
  funext j
  obtain ⟨p, q, rfl⟩ : ∃ (p : Fin 1) (q : Fin 6), j = ix2 p q := ⟨j 0, j 1, eq_ix2 j⟩
  have hi : ∀ b : Fin S1x1.rank, b.cast (rfl : S1x1.rank = S1x6.rank) ≠ (1 : Fin S1x6.rank) → ((ix2 (0 : Fin 1) (0 : Fin 1) : S1x1.Idx) b).val = ((ix2 p q : S1x6.Idx) (b.cast rfl)).val := by
    intro b hb
    match b with
    | ⟨0, _⟩ => show (0 : ℕ) = p.val; omega
    | ⟨1, _⟩ => exact absurd rfl hb
  unfold six
  fin_cases q
  · refine (concatenate_apply_piece (1 : Fin S1x6.rank) _ _ _ 0 (by simp) S1x1 (fin_4 (F := Ideal) m c) rfl rfl 0 rfl (ix2 0 0) hi rfl).trans ?_
    rw [fin_4_eq]
    simp [Cert.Spec.pairs, Cert.Spec.lo, Cert.Spec.hi, Cert.Spec.row]
  · refine (concatenate_apply_piece (1 : Fin S1x6.rank) _ _ _ 1 (by simp) S1x1 (fin_5 (F := Ideal) m c) rfl rfl 1 rfl (ix2 0 0) hi rfl).trans ?_
    rw [fin_5_eq]
    simp [Cert.Spec.pairs, Cert.Spec.lo, Cert.Spec.hi, Cert.Spec.row]
  · refine (concatenate_apply_piece (1 : Fin S1x6.rank) _ _ _ 2 (by simp) S1x1 (fin_6 (F := Ideal) m c) rfl rfl 2 rfl (ix2 0 0) hi rfl).trans ?_
    rw [fin_6_eq]
    simp [Cert.Spec.pairs, Cert.Spec.lo, Cert.Spec.hi, Cert.Spec.row]
  · refine (concatenate_apply_piece (1 : Fin S1x6.rank) _ _ _ 3 (by simp) S1x1 (fin_7 (F := Ideal) m c) rfl rfl 3 rfl (ix2 0 0) hi rfl).trans ?_
    rw [fin_7_eq]
    simp [Cert.Spec.pairs, Cert.Spec.lo, Cert.Spec.hi, Cert.Spec.row]
  · refine (concatenate_apply_piece (1 : Fin S1x6.rank) _ _ _ 4 (by simp) S1x1 (fin_8 (F := Ideal) m c) rfl rfl 4 rfl (ix2 0 0) hi rfl).trans ?_
    rw [fin_8_eq]
    simp [Cert.Spec.pairs, Cert.Spec.lo, Cert.Spec.hi, Cert.Spec.row]
  · refine (concatenate_apply_piece (1 : Fin S1x6.rank) _ _ _ 5 (by simp) S1x1 (fin_9 (F := Ideal) m c) rfl rfl 5 rfl (ix2 0 0) hi rfl).trans ?_
    rw [fin_9_eq]
    simp [Cert.Spec.pairs, Cert.Spec.lo, Cert.Spec.hi, Cert.Spec.row]

end Cert.KernelIdeal.Hand

end
-- ==== Proof.Ref.Z.lean ====
/-
  The reference's 1 x 6 array as one term of the four argument rows: the rows stacked as a
  1 x 4 x 16777216 array, its 4 x 4 Gram matrix (each entry a contraction over the long axis), and the
  six strictly-lower-triangular entries gathered at the constant index pairs (1,0), (2,0), (2,1),
  (3,0), (3,1), (3,2).
-/
import proofs.«175682_j70781061038447_1_alg».proof.Proof.Gen.ReferenceIdeal

noncomputable section

namespace Cert.ReferenceIdeal.Hand

open Cert.ReferenceIdeal Cert.ReferenceIdeal.Gen Idealize.ShloMosaic

variable {F : FTy → Type} [FloatOps F]

/-- The four rows stacked: concatenated along the long axis, then re-laid with one row per argument. -/
def T (a0 a1 a2 a3 : (⟨S1x16777216, .f32⟩ : BufTy).Contents (Elt F)) : (⟨S1x4x16777216, .f32⟩ : BufTy).Contents (Elt F) :=
  shapeCast S1x4x16777216 (concatenate S1x67108864 1 [⟨S1x16777216, a0⟩, ⟨S1x16777216, a1⟩, ⟨S1x16777216, a2⟩, ⟨S1x16777216, a3⟩] concatenates_S1x16777216_S1x16777216_S1x16777216_S1x16777216_S1x67108864_d1) shapeCasts_S1x67108864_S1x4x16777216

/-- One column of index pairs: a constant table of six integers, wrapped by 4 where negative (never: the mask is constant false). -/
def col (tab : Fin 6 → BitVec 32) : (⟨S6x1, .i32⟩ : BufTy).Contents (Elt F) :=
  broadcastInDim S6x1 ![0] bcast_S6_S6x1_0
    (select (constantI S6 1 0#1 : (⟨S6, .i1⟩ : BufTy).Contents (Elt F))
      (addi (fun i => tab (S6.rowMajor i) : (⟨S6, .i32⟩ : BufTy).Contents (Elt F)) (broadcastInDim S6 ![] bcast_S_S6 (constantI S_ 32 4#32 : (⟨S_, .i32⟩ : BufTy).Contents (Elt F)) : (⟨S6, .i32⟩ : BufTy).Contents (Elt F)) : (⟨S6, .i32⟩ : BufTy).Contents (Elt F))
      (fun i => tab (S6.rowMajor i) : (⟨S6, .i32⟩ : BufTy).Contents (Elt F)) : (⟨S6, .i32⟩ : BufTy).Contents (Elt F))

/-- The 6 x 2 array of (row, column) pairs. -/
def pairIdx : (⟨S6x2, .i32⟩ : BufTy).Contents (Elt F) :=
  concatenate S6x2 1 [⟨S6x1, col (F := F) lit0⟩, ⟨S6x1, col (F := F) lit1⟩] concatenates_S6x1_S6x1_S6x2_d1

/-- The Gram matrix of the stacked rows. -/
def gram (a0 a1 a2 a3 : (⟨S1x16777216, .f32⟩ : BufTy).Contents (Elt F)) : (⟨S1x4x4, .f32⟩ : BufTy).Contents (Elt F) :=
  Host.dotGeneral dot_S1x4x16777216_S1x4x16777216_S1x4x4_2_2_1_1_0_0 none (T a0 a1 a2 a3) (T a0 a1 a2 a3)

/-- The six gathered entries. -/
def Z (a0 a1 a2 a3 : (⟨S1x16777216, .f32⟩ : BufTy).Contents (Elt F)) : (⟨S1x6, .f32⟩ : BufTy).Contents (Elt F) :=
  Host.gather gather_S1x4x4_S6x2_S1x6_0_12_n_n_12_1_111 (gram a0 a1 a2 a3) (pairIdx (F := F))

end Cert.ReferenceIdeal.Hand

end
-- ==== Proof.Ref.Run.lean ====
/-
  The reference program's run, read back. The reference is a straight line of twenty host operations
  and no kernel: six integer constants and their elementwise wrap (add 4 where a constant-false mask
  says so), two broadcasts to columns and their pairing into a 6 x 2 index array; the four argument
  rows concatenated, re-laid as 1 x 4 x 16777216, contracted against itself to the 4 x 4 Gram matrix;
  the six entries at the index pairs gathered; and the result row, the first argument followed by
  those six entries. Run from any memory with zero counters, every weakly fair execution terminates
  with the result buffer at that composed term of the arguments' launch contents and the four
  arguments unchanged.
-/
import proofs.«175682_j70781061038447_1_alg».proof.Proof.Ref.Z
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's twenty operations, in order. -/
abbrev ops : List (HloOp τ sig (Elt F)) :=
  [ nullary main_c (fun i => lit0 (S6.rowMajor i)),
    nullary main_c_0 (constantI S6 1 0#1),
    nullary main_c_1 (fun i => lit1 (S6.rowMajor i)),
    nullary main_c_2 (constantI S6 1 0#1),
    nary ![main_arg0, main_arg1, main_arg2, main_arg3] main_v0 (fun u => concatenate S1x67108864 1 [⟨S1x16777216, u 0⟩, ⟨S1x16777216, u 1⟩, ⟨S1x16777216, u 2⟩, ⟨S1x16777216, u 3⟩] concatenates_S1x16777216_S1x16777216_S1x16777216_S1x16777216_S1x67108864_d1),
    reshape main_v0 main_v1 rfl shapeCasts_S1x67108864_S1x4x16777216,
    binary main_v1 main_v1 main_v2 ((fun l r => Host.dotGeneral dot_S1x4x16777216_S1x4x16777216_S1x4x4_2_2_1_1_0_0 none l r) : (⟨S1x4x16777216, .f32⟩ : BufTy).Contents (Elt F) → (⟨S1x4x16777216, .f32⟩ : BufTy).Contents (Elt F) → (⟨S1x4x4, .f32⟩ : BufTy).Contents (Elt F)),
    nullary main_c_3 (constantI S_ 32 4#32),
    unary main_c_3 main_v3 (broadcastInDim S6 ![] bcast_S_S6 : (⟨S_, .i32⟩ : BufTy).Contents (Elt F) → (⟨S6, .i32⟩ : BufTy).Contents (Elt F)),
    binary main_c main_v3 main_v4 (addi : (⟨S6, .i32⟩ : BufTy).Contents (Elt F) → (⟨S6, .i32⟩ : BufTy).Contents (Elt F) → (⟨S6, .i32⟩ : BufTy).Contents (Elt F)),
    ternary main_c_0 main_v4 main_c main_v5 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    nullary main_c_4 (constantI S_ 32 4#32),
    unary main_c_4 main_v6 (broadcastInDim S6 ![] bcast_S_S6 : (⟨S_, .i32⟩ : BufTy).Contents (Elt F) → (⟨S6, .i32⟩ : BufTy).Contents (Elt F)),
    binary main_c_1 main_v6 main_v7 (addi : (⟨S6, .i32⟩ : BufTy).Contents (Elt F) → (⟨S6, .i32⟩ : BufTy).Contents (Elt F) → (⟨S6, .i32⟩ : BufTy).Contents (Elt F)),
    ternary main_c_2 main_v7 main_c_1 main_v8 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v5 main_v9 (broadcastInDim S6x1 ![0] bcast_S6_S6x1_0 : (⟨S6, .i32⟩ : BufTy).Contents (Elt F) → (⟨S6x1, .i32⟩ : BufTy).Contents (Elt F)),
    unary main_v8 main_v10 (broadcastInDim S6x1 ![0] bcast_S6_S6x1_0 : (⟨S6, .i32⟩ : BufTy).Contents (Elt F) → (⟨S6x1, .i32⟩ : BufTy).Contents (Elt F)),
    binary main_v9 main_v10 main_v11 ((fun a b => concatenate S6x2 1 [⟨S6x1, a⟩, ⟨S6x1, b⟩] concatenates_S6x1_S6x1_S6x2_d1) : (⟨S6x1, .i32⟩ : BufTy).Contents (Elt F) → (⟨S6x1, .i32⟩ : BufTy).Contents (Elt F) → (⟨S6x2, .i32⟩ : BufTy).Contents (Elt F)),
    binary main_v2 main_v11 main_v12 ((fun x i => Host.gather gather_S1x4x4_S6x2_S1x6_0_12_n_n_12_1_111 x i) : (⟨S1x4x4, .f32⟩ : BufTy).Contents (Elt F) → (⟨S6x2, .i32⟩ : BufTy).Contents (Elt F) → (⟨S1x6, .f32⟩ : BufTy).Contents (Elt F)),
    binary main_arg0 main_v12 main_v13 ((fun a b => concatenate S1x16777222 1 [⟨S1x16777216, a⟩, ⟨S1x6, b⟩] concatenates_S1x16777216_S1x6_S1x16777222_d1) : (⟨S1x16777216, .f32⟩ : BufTy).Contents (Elt F) → (⟨S1x6, .f32⟩ : BufTy).Contents (Elt F) → (⟨S1x16777222, .f32⟩ : BufTy).Contents (Elt F)) ]

/-- The printed program is the line of its operations. -/
theorem main_eq (c : Dev nD) : main (F := F) c = seq ops := rfl
/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide
/-- Every operation touches buffers of the one core only. -/
theorem ops_sub : (ops : List (HloOp τ sig (Elt F))).Forall fun op => op.bufs ⊆ tcRefs τ sig :=
  ⟨nullary_bufs_sub .., nullary_bufs_sub .., nullary_bufs_sub .., nullary_bufs_sub .., nary_bufs_sub .., reshape_bufs_sub ..,
   binary_bufs_sub .., nullary_bufs_sub .., unary_bufs_sub .., binary_bufs_sub .., ternary_bufs_sub .., nullary_bufs_sub ..,
   unary_bufs_sub .., binary_bufs_sub .., ternary_bufs_sub .., unary_bufs_sub .., unary_bufs_sub .., binary_bufs_sub ..,
   binary_bufs_sub .., binary_bufs_sub ..⟩

/-! ## What the buffers hold after the line, from any contents `V`

Each operation rewrites its own result buffer and leaves every other; read back from the last operation to the
first, the result row is the first argument followed by `Z` of the four arguments: the index columns are the
two constant tables through their (constant-false) wrap, the Gram matrix is the contraction of the stacked rows
with themselves, and the operands of the four-fold concatenation are the arguments themselves, no operation
before it having written them. -/

/-- The result row after the line. -/
theorem after_v13 (V : Valuation τ sig (Elt F)) :
    after (ops (F := F)) V (Proc.devRef .tc main_v13)
      = concatenate S1x16777222 1 [⟨S1x16777216, V (Proc.devRef .tc main_arg0)⟩,
            ⟨S1x6, Z (V (Proc.devRef .tc main_arg0)) (V (Proc.devRef .tc main_arg1)) (V (Proc.devRef .tc main_arg2)) (V (Proc.devRef .tc main_arg3))⟩] concatenates_S1x16777216_S1x6_S1x16777222_d1 := by
  after_results
  rfl

/-- No operation writes the first argument. -/
theorem after_arg0 (V : Valuation τ sig (Elt F)) : after (ops (F := F)) V (Proc.devRef .tc main_arg0) = V (Proc.devRef .tc main_arg0) := by
  after_results
/-- No operation writes the second argument. -/
theorem after_arg1 (V : Valuation τ sig (Elt F)) : after (ops (F := F)) V (Proc.devRef .tc main_arg1) = V (Proc.devRef .tc main_arg1) := by
  after_results
/-- No operation writes the third argument. -/
theorem after_arg2 (V : Valuation τ sig (Elt F)) : after (ops (F := F)) V (Proc.devRef .tc main_arg2) = V (Proc.devRef .tc main_arg2) := by
  after_results
/-- No operation writes the fourth argument. -/
theorem after_arg3 (V : Valuation τ sig (Elt F)) : after (ops (F := F)) V (Proc.devRef .tc main_arg3) = V (Proc.devRef .tc main_arg3) := by
  after_results

/-- On every device, for any float values, from any memory with zero counters: every weakly fair execution of
    the program terminates with the result row the first argument followed by the six gathered Gram entries, and
    the four arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
        = concatenate S1x16777222 1 [⟨S1x16777216, m ((c.tc : Thread nD τ).loc main_arg0)⟩,
            ⟨S1x6, Z (m ((c.tc : Thread nD τ).loc main_arg0)) (m ((c.tc : Thread nD τ).loc main_arg1)) (m ((c.tc : Thread nD τ).loc main_arg2)) (m ((c.tc : Thread nD τ).loc main_arg3))⟩] concatenates_S1x16777216_S1x6_S1x16777222_d1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v13).trans (after_v13 (launchContents m c)),
      (h c main_arg0).trans (after_arg0 (launchContents m c)),
      (h c main_arg1).trans (after_arg1 (launchContents m c)),
      (h c main_arg2).trans (after_arg2 (launchContents m c)),
      (h c main_arg3).trans (after_arg3 (launchContents m c))⟩)
    (run_seq scopedRefs_eq scopedSems_eq defs main (fun _ => ops) main_eq (fun _ => ops_sub) m ρ)

end Cert.ReferenceIdeal.Hand

end
-- ==== Proof.Ref.Read.lean ====
/-
  The reference's 1 x 6 array read at an index, at the ideal values (a float an extended real).

  The reference stacks its four argument rows into a 1 x 4 x 16777216 array (the rows laid end to end, then re-laid
  one row per argument), forms the 4 x 4 Gram matrix of the stack (each entry the sum over the long axis of the
  products of two rows) and gathers the six strictly-lower-triangular entries (1,0), (2,0), (2,1), (3,0), (3,1), (3,2).
  Read index by index:
    * the stack at (0, i, k) is row i at k: its flat position i * 16777216 + k falls in the i-th of the four pieces;
    * the Gram matrix at (0, p, q) is the sum over k of stack(0, p, k) * stack(0, q, k): one batch axis of extent 1, the
      last axis of both operands contracted;
    * the index pairs are two constant tables side by side (the wrap of negative indices never fires: its mask is
      constantly false), and each gathered entry is the Gram matrix at its pair, the clamp into 0..3 being the identity
      on the tables' words.
  So entry n is the dot product of rows hi n and lo n.
-/
import proofs.«175682_j70781061038447_1_alg».proof.Proof.Ref.Z
import proofs.«175682_j70781061038447_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Idealize.ShloMosaic Idealize.ShloMosaic.ValueIdx

/-! ### The stacked rows at an index -/

/-- Off the long axis a position of a row and of the four rows laid end to end have the same (only) coordinate. -/
theorem cat_off (k : Fin 16777216) (c : Fin 67108864) :
    ∀ b : Fin S1x16777216.rank, b.cast (rfl : S1x16777216.rank = S1x67108864.rank) ≠ (1 : Fin S1x67108864.rank) →
      ((ix2 (0 : Fin 1) k) b).val = ((ix2 (0 : Fin 1) c) (b.cast rfl)).val := fun b hb => by
  match b with
  | ⟨0, _⟩ => rfl
  | ⟨1, _⟩ => exact absurd rfl hb

theorem cat_apply0 (a0 a1 a2 a3 : FVec Ideal S1x16777216 .f32) (k : Fin 16777216) (c : Fin 67108864)
    (hc : c.val = 0 + k.val) :
    concatenate S1x67108864 1 [⟨S1x16777216, a0⟩, ⟨S1x16777216, a1⟩, ⟨S1x16777216, a2⟩, ⟨S1x16777216, a3⟩]
        Facts₀.concatenates_S1x16777216_S1x16777216_S1x16777216_S1x16777216_S1x67108864_d1 (ix2 0 c)
      = a0 (ix2 0 k) :=
  concatenate_apply_piece (1 : Fin S1x67108864.rank) _ _ (ix2 0 c) 0 (by simp) S1x16777216 a0 rfl rfl 0 (by simp) (ix2 0 k)
    (cat_off k c) hc.symm

theorem cat_apply1 (a0 a1 a2 a3 : FVec Ideal S1x16777216 .f32) (k : Fin 16777216) (c : Fin 67108864)
    (hc : c.val = 16777216 + k.val) :
    concatenate S1x67108864 1 [⟨S1x16777216, a0⟩, ⟨S1x16777216, a1⟩, ⟨S1x16777216, a2⟩, ⟨S1x16777216, a3⟩]
        Facts₀.concatenates_S1x16777216_S1x16777216_S1x16777216_S1x16777216_S1x67108864_d1 (ix2 0 c)
      = a1 (ix2 0 k) :=
  concatenate_apply_piece (1 : Fin S1x67108864.rank) _ _ (ix2 0 c) 1 (by simp) S1x16777216 a1 rfl rfl 16777216 (by simp) (ix2 0 k)
    (cat_off k c) hc.symm

theorem cat_apply2 (a0 a1 a2 a3 : FVec Ideal S1x16777216 .f32) (k : Fin 16777216) (c : Fin 67108864)
    (hc : c.val = 33554432 + k.val) :
    concatenate S1x67108864 1 [⟨S1x16777216, a0⟩, ⟨S1x16777216, a1⟩, ⟨S1x16777216, a2⟩, ⟨S1x16777216, a3⟩]
        Facts₀.concatenates_S1x16777216_S1x16777216_S1x16777216_S1x16777216_S1x67108864_d1 (ix2 0 c)
      = a2 (ix2 0 k) :=
  concatenate_apply_piece (1 : Fin S1x67108864.rank) _ _ (ix2 0 c) 2 (by simp) S1x16777216 a2 rfl rfl 33554432 (by simp) (ix2 0 k)
    (cat_off k c) hc.symm

theorem cat_apply3 (a0 a1 a2 a3 : FVec Ideal S1x16777216 .f32) (k : Fin 16777216) (c : Fin 67108864)
    (hc : c.val = 50331648 + k.val) :
    concatenate S1x67108864 1 [⟨S1x16777216, a0⟩, ⟨S1x16777216, a1⟩, ⟨S1x16777216, a2⟩, ⟨S1x16777216, a3⟩]
        Facts₀.concatenates_S1x16777216_S1x16777216_S1x16777216_S1x16777216_S1x67108864_d1 (ix2 0 c)
      = a3 (ix2 0 k) :=
  concatenate_apply_piece (1 : Fin S1x67108864.rank) _ _ (ix2 0 c) 3 (by simp) S1x16777216 a3 rfl rfl 50331648 (by simp) (ix2 0 k)
    (cat_off k c) hc.symm

/-- The stacked array at (0, i, k) is row i at position k: entry (0, i, k) sits at flat position i * 16777216 + k of the
    four rows laid end to end, which is inside row i. -/
theorem T_apply (a0 a1 a2 a3 : FVec Ideal S1x16777216 .f32) (i : Fin 4) (k : Fin 16777216) :
    T (F := Ideal) a0 a1 a2 a3 (ix3 0 i k) = (Cert.Spec.row a0 a1 a2 a3 i.val) (ix2 0 k) := by
  have hlt : i.val * 16777216 + k.val < 67108864 := by have := i.isLt; have := k.isLt; omega
  unfold T
  rw [shapeCast_apply _ _ (ix3 0 i k) (ix2 0 ⟨i.val * 16777216 + k.val, hlt⟩) (by
    rw [Shape.rowMajor_val_two, Shape.rowMajor_val_three]
    show (0 : ℕ) * 67108864 + (i.val * 16777216 + k.val) = ((0 : ℕ) * 4 + i.val) * 16777216 + k.val
    omega)]
  obtain ⟨i, hi⟩ := i
  have h4 : i = 0 ∨ i = 1 ∨ i = 2 ∨ i = 3 := by omega
  rcases h4 with rfl | rfl | rfl | rfl
  · show _ = a0 (ix2 0 k)
    exact cat_apply0 a0 a1 a2 a3 k _ (by show 0 * 16777216 + k.val = 0 + k.val; omega)
  · show _ = a1 (ix2 0 k)
    exact cat_apply1 a0 a1 a2 a3 k _ (by show 1 * 16777216 + k.val = 16777216 + k.val; omega)
  · show _ = a2 (ix2 0 k)
    exact cat_apply2 a0 a1 a2 a3 k _ (by show 2 * 16777216 + k.val = 33554432 + k.val; omega)
  · show _ = a3 (ix2 0 k)
    exact cat_apply3 a0 a1 a2 a3 k _ (by show 3 * 16777216 + k.val = 50331648 + k.val; omega)

/-! ### The Gram product at an entry

The operand indices of the product at result index j and contraction position κ, axis by axis: the batch axis 0 and the
free axis 1 read j (the right operand's free axis reads j's last coordinate), the contracted axis 2 reads κ. -/

theorem lhs_gram_0 (j : S1x4x4.Idx) (κ : dot_S1x4x16777216_S1x4x16777216_S1x4x4_2_2_1_1_0_0.contr.Idx) :
    (dot_S1x4x16777216_S1x4x16777216_S1x4x4_2_2_1_1_0_0.lhsIdx j κ 0).val = (j 0).val := rfl
theorem lhs_gram_1 (j : S1x4x4.Idx) (κ : dot_S1x4x16777216_S1x4x16777216_S1x4x4_2_2_1_1_0_0.contr.Idx) :
    (dot_S1x4x16777216_S1x4x16777216_S1x4x4_2_2_1_1_0_0.lhsIdx j κ 1).val = (j 1).val := rfl
theorem lhs_gram_2 (j : S1x4x4.Idx) (κ : dot_S1x4x16777216_S1x4x16777216_S1x4x4_2_2_1_1_0_0.contr.Idx) :
    (dot_S1x4x16777216_S1x4x16777216_S1x4x4_2_2_1_1_0_0.lhsIdx j κ 2).val = (κ ⟨0, Nat.one_pos⟩).val := rfl
theorem rhs_gram_0 (j : S1x4x4.Idx) (κ : dot_S1x4x16777216_S1x4x16777216_S1x4x4_2_2_1_1_0_0.contr.Idx) :
    (dot_S1x4x16777216_S1x4x16777216_S1x4x4_2_2_1_1_0_0.rhsIdx j κ 0).val = (j 0).val := rfl
theorem rhs_gram_1 (j : S1x4x4.Idx) (κ : dot_S1x4x16777216_S1x4x16777216_S1x4x4_2_2_1_1_0_0.contr.Idx) :
    (dot_S1x4x16777216_S1x4x16777216_S1x4x4_2_2_1_1_0_0.rhsIdx j κ 1).val = (j 2).val := rfl
theorem rhs_gram_2 (j : S1x4x4.Idx) (κ : dot_S1x4x16777216_S1x4x16777216_S1x4x4_2_2_1_1_0_0.contr.Idx) :
    (dot_S1x4x16777216_S1x4x16777216_S1x4x4_2_2_1_1_0_0.rhsIdx j κ 2).val = (κ ⟨0, Nat.one_pos⟩).val := rfl

/-- Entry (0, p, q) of a batched product contracting the last axis of both operands: the sum over the long axis of the
    products of row p of the left operand and row q of the right. -/
theorem dot_apply (x y : FVec Ideal S1x4x16777216 .f32) (p q : Fin 4) :
    Host.dotGeneral dot_S1x4x16777216_S1x4x16777216_S1x4x4_2_2_1_1_0_0 none x y (ix3 0 p q)
      = ∑ k : Fin 16777216, x (ix3 0 p k) * y (ix3 0 q k) := by
  show FloatOps.dotGeneral dot_S1x4x16777216_S1x4x16777216_S1x4x4_2_2_1_1_0_0 none .single x y (ix3 0 p q) = _
  rw [Ideal.dotGeneral_apply]
  rw [← Equiv.sum_comp (contrEquiv1 dot_S1x4x16777216_S1x4x16777216_S1x4x4_2_2_1_1_0_0 16777216 rfl rfl).symm]
  refine Finset.sum_congr rfl fun k _ => ?_
  have hk := contrEquiv1_symm_val dot_S1x4x16777216_S1x4x16777216_S1x4x4_2_2_1_1_0_0 16777216 rfl rfl k
  have el : dot_S1x4x16777216_S1x4x16777216_S1x4x4_2_2_1_1_0_0.lhsIdx (ix3 0 p q)
      ((contrEquiv1 dot_S1x4x16777216_S1x4x16777216_S1x4x4_2_2_1_1_0_0 16777216 rfl rfl).symm k) = ix3 0 p k :=
    funext fun a => Fin.ext (by
      match a with
      | ⟨0, _⟩ => exact lhs_gram_0 _ _
      | ⟨1, _⟩ => exact lhs_gram_1 _ _
      | ⟨2, _⟩ => exact (lhs_gram_2 _ _).trans hk)
  have er : dot_S1x4x16777216_S1x4x16777216_S1x4x4_2_2_1_1_0_0.rhsIdx (ix3 0 p q)
      ((contrEquiv1 dot_S1x4x16777216_S1x4x16777216_S1x4x4_2_2_1_1_0_0 16777216 rfl rfl).symm k) = ix3 0 q k :=
    funext fun a => Fin.ext (by
      match a with
      | ⟨0, _⟩ => exact rhs_gram_0 _ _
      | ⟨1, _⟩ => exact rhs_gram_1 _ _
      | ⟨2, _⟩ => exact (rhs_gram_2 _ _).trans hk)
  rw [el, er]

/-- The Gram matrix at (0, p, q): the sum over the long axis of the products of rows p and q of the stacked array. -/
theorem gram_apply (a0 a1 a2 a3 : FVec Ideal S1x16777216 .f32) (p q : Fin 4) :
    gram (F := Ideal) a0 a1 a2 a3 (ix3 0 p q)
      = ∑ k : Fin 16777216, T (F := Ideal) a0 a1 a2 a3 (ix3 0 p k) * T (F := Ideal) a0 a1 a2 a3 (ix3 0 q k) := by
  unfold gram
  exact dot_apply _ _ p q

/-- The same entry as a dot product of two argument rows. -/
theorem gram_apply_dot (a0 a1 a2 a3 : FVec Ideal S1x16777216 .f32) (p q : Fin 4) :
    gram (F := Ideal) a0 a1 a2 a3 (ix3 0 p q)
      = Cert.Spec.dot (Cert.Spec.row a0 a1 a2 a3 p.val) (Cert.Spec.row a0 a1 a2 a3 q.val) := by
  rw [gram_apply]
  unfold Cert.Spec.dot
  exact Finset.sum_congr rfl fun k _ => by rw [T_apply, T_apply]

/-! ### The index pairs -/

/-- One column of the index pairs at row n is the table's n-th word: the select's mask is constantly false. -/
theorem col_apply (tab : Fin 6 → BitVec 32) (n : Fin 6) : col (F := Ideal) tab (ix2 n 0) = tab n := by
  unfold col
  rw [broadcastInDim_apply (![0]) _ _ (ix2 n 0) (ix1 n) (fun a => by match a with | ⟨0, _⟩ => rfl)]
  rw [select_apply]
  show Scalar.select 0#1 _ _ = _
  rw [select_zero]
  exact congrArg tab (Fin.ext (Shape.rowMajor_val_one _))

/-- The pair array at (n, 0) is the first table's n-th word. -/
theorem pairIdx_apply0 (n : Fin 6) : pairIdx (F := Ideal) (ix2 n 0) = lit0 n := by
  unfold pairIdx
  rw [concatenate_pair_apply_left (s₁ := S6x1) (s₂ := S6x1) (1 : Fin S6x2.rank) _ _ _ (ix2 n 0)
    (rfl : S6x1.rank = S6x2.rank) (ix2 n 0) (fun b => by match b with | ⟨0, _⟩ => rfl | ⟨1, _⟩ => rfl)]
  exact col_apply lit0 n

/-- The pair array at (n, 1) is the second table's n-th word. -/
theorem pairIdx_apply1 (n : Fin 6) : pairIdx (F := Ideal) (ix2 n 1) = lit1 n := by
  unfold pairIdx
  rw [concatenate_pair_apply_right (s₁ := S6x1) (s₂ := S6x1) (1 : Fin S6x2.rank) _ _ _ (ix2 n 1)
    (rfl : S6x1.rank = S6x2.rank) (rfl : S6x1.rank = S6x2.rank) (ix2 n 0)
    (fun b hb => by match b with | ⟨0, _⟩ => rfl | ⟨1, _⟩ => exact absurd rfl hb) rfl]
  exact col_apply lit1 n

/-! ### The gather at an index

The operand index the gather reads for result index (0, n), axis by axis: axis 0 is the slice's one offset coordinate
(the result's coordinate 0), axes 1 and 2 are the start indices at (n, 0) and (n, 1), read signed and clamped so that
the unit slice fits (into 0..3). -/

/-- The gathered operand index on the batch axis: the slice's only offset coordinate. -/
theorem gather_coord0 {w : ℕ} (idx : IVec S6x2 w) (n : Fin 6) :
    (gather_S1x4x4_S6x2_S1x6_0_12_n_n_12_1_111.operandIdx (ix2 0 n) idx 0).val = 0 := by
  show gather_S1x4x4_S6x2_S1x6_0_12_n_n_12_1_111.start (ix2 0 n) idx 0 + gather_S1x4x4_S6x2_S1x6_0_12_n_n_12_1_111.batchCoord (ix2 0 n) 0 + gather_S1x4x4_S6x2_S1x6_0_12_n_n_12_1_111.offCoord (ix2 0 n) 0 = 0
  rw [GatherDims.batchCoord_eq_zero _ _ _ (by decide)]
  unfold GatherDims.start
  rw [dif_neg (by decide)]
  rfl

theorem gather_coord1 {w : ℕ} (idx : IVec S6x2 w) (n : Fin 6) :
    (gather_S1x4x4_S6x2_S1x6_0_12_n_n_12_1_111.operandIdx (ix2 0 n) idx 1).val = min (idx (ix2 n 0)).toInt.toNat 3 := by
  show gather_S1x4x4_S6x2_S1x6_0_12_n_n_12_1_111.start (ix2 0 n) idx 1 + gather_S1x4x4_S6x2_S1x6_0_12_n_n_12_1_111.batchCoord (ix2 0 n) 1 + gather_S1x4x4_S6x2_S1x6_0_12_n_n_12_1_111.offCoord (ix2 0 n) 1 = _
  have hm : (1 : Fin S1x4x4.rank) ∈ gather_S1x4x4_S6x2_S1x6_0_12_n_n_12_1_111.startIndexMap := by decide
  rw [GatherDims.batchCoord_eq_zero _ _ _ (by decide), GatherDims.offCoord_eq_zero _ _ _ (by decide)]
  simp only [Nat.add_zero]
  unfold GatherDims.start
  rw [dif_pos hm]
  have hsi : gather_S1x4x4_S6x2_S1x6_0_12_n_n_12_1_111.siIdx (ix2 0 n) ⟨List.idxOf (1 : Fin S1x4x4.rank) gather_S1x4x4_S6x2_S1x6_0_12_n_n_12_1_111.startIndexMap, List.idxOf_lt_length_iff.2 hm⟩
      = ix2 n 0 := by
    funext b; refine Fin.ext ?_
    match b with
    | ⟨0, _⟩ => rfl
    | ⟨1, _⟩ => rfl
  rw [hsi]
  rfl

theorem gather_coord2 {w : ℕ} (idx : IVec S6x2 w) (n : Fin 6) :
    (gather_S1x4x4_S6x2_S1x6_0_12_n_n_12_1_111.operandIdx (ix2 0 n) idx 2).val = min (idx (ix2 n 1)).toInt.toNat 3 := by
  show gather_S1x4x4_S6x2_S1x6_0_12_n_n_12_1_111.start (ix2 0 n) idx 2 + gather_S1x4x4_S6x2_S1x6_0_12_n_n_12_1_111.batchCoord (ix2 0 n) 2 + gather_S1x4x4_S6x2_S1x6_0_12_n_n_12_1_111.offCoord (ix2 0 n) 2 = _
  have hm : (2 : Fin S1x4x4.rank) ∈ gather_S1x4x4_S6x2_S1x6_0_12_n_n_12_1_111.startIndexMap := by decide
  rw [GatherDims.batchCoord_eq_zero _ _ _ (by decide), GatherDims.offCoord_eq_zero _ _ _ (by decide)]
  simp only [Nat.add_zero]
  unfold GatherDims.start
  rw [dif_pos hm]
  have hsi : gather_S1x4x4_S6x2_S1x6_0_12_n_n_12_1_111.siIdx (ix2 0 n) ⟨List.idxOf (2 : Fin S1x4x4.rank) gather_S1x4x4_S6x2_S1x6_0_12_n_n_12_1_111.startIndexMap, List.idxOf_lt_length_iff.2 hm⟩
      = ix2 n 1 := by
    funext b; refine Fin.ext ?_
    match b with
    | ⟨0, _⟩ => rfl
    | ⟨1, _⟩ => rfl
  rw [hsi]
  rfl

/-- The gather read at (0, n): the operand at (0, r, c), where r and c are the n-th pair of start indices read signed and
    clamped into 0..3. -/
theorem gather_apply {α : Type} {w : ℕ} (x : S1x4x4.Idx → α) (idx : IVec S6x2 w) (n : Fin 6) (p q : Fin 4)
    (hp : min (idx (ix2 n 0)).toInt.toNat 3 = p.val) (hq : min (idx (ix2 n 1)).toInt.toNat 3 = q.val) :
    Host.gather gather_S1x4x4_S6x2_S1x6_0_12_n_n_12_1_111 x idx (ix2 0 n) = x (ix3 0 p q) := by
  unfold Host.gather
  refine congrArg x (funext fun a => Fin.ext ?_)
  match a with
  | ⟨0, _⟩ => exact gather_coord0 idx n
  | ⟨1, _⟩ => exact (gather_coord1 idx n).trans hp
  | ⟨2, _⟩ => exact (gather_coord2 idx n).trans hq

/-! ### The six gathered entries -/

/-- Entry n of the gathered array, given the n-th pair of start indices (read signed, clamped into 0..3) as h and l: the
    dot product of rows h and l. -/
theorem Z_entry (a0 a1 a2 a3 : FVec Ideal S1x16777216 .f32) (n : Fin 6) (h l : Fin 4)
    (hh : min (lit0 n).toInt.toNat 3 = h.val) (hl : min (lit1 n).toInt.toNat 3 = l.val) :
    Z (F := Ideal) a0 a1 a2 a3 (ix2 0 n)
      = Cert.Spec.dot (Cert.Spec.row a0 a1 a2 a3 h.val) (Cert.Spec.row a0 a1 a2 a3 l.val) := by
  unfold Z
  rw [gather_apply _ _ n h l (by rw [pairIdx_apply0]; exact hh) (by rw [pairIdx_apply1]; exact hl)]
  exact gram_apply_dot a0 a1 a2 a3 h l

/-- Entry n of the reference's 1 x 6 array is the Gram entry (hi n, lo n): the dot product of rows hi n and lo n of the
    stacked array. -/
theorem Z_apply (a0 a1 a2 a3 : FVec Ideal S1x16777216 .f32) (j : S1x6.Idx) :
    Z (F := Ideal) a0 a1 a2 a3 j
      = Cert.Spec.dot (Cert.Spec.row a0 a1 a2 a3 (Cert.Spec.hi (j 1).val)) (Cert.Spec.row a0 a1 a2 a3 (Cert.Spec.lo (j 1).val)) := by
  obtain ⟨p, q, rfl⟩ : ∃ p q, j = ix2 p q := ⟨j 0, j 1, eq_ix2 j⟩
  obtain rfl : p = 0 := Subsingleton.elim _ _
  fin_cases q
  · exact Z_entry a0 a1 a2 a3 0 1 0 (by decide) (by decide)
  · exact Z_entry a0 a1 a2 a3 1 2 0 (by decide) (by decide)
  · exact Z_entry a0 a1 a2 a3 2 2 1 (by decide) (by decide)
  · exact Z_entry a0 a1 a2 a3 3 3 0 (by decide) (by decide)
  · exact Z_entry a0 a1 a2 a3 4 3 1 (by decide) (by decide)
  · exact Z_entry a0 a1 a2 a3 5 3 2 (by decide) (by decide)

end Cert.ReferenceIdeal.Hand

end
-- ==== Proof.lean ====
/-
  The five claims. The kernel streams four rows of 16777216 numbers through its pipeline in 32 blocks
  of 4096 x 128, keeps six (1,1) accumulators — zeroed at the first block, each increased at every block
  by the sum of the products of two rows' blocks — and, after the region, lays the six values side by side
  behind the first row. The reference stacks the rows, takes the 4 x 4 matrix of their dot products and
  gathers its six strictly-lower-triangular entries behind the first row. On the extended reals a sum of
  products over all positions is the same sum block by block, row by row and lane by lane (addition is
  commutative and associative there, infinities included), and a dot product is symmetric; so both
  programs end with the first row followed by the six pairwise dot products, and no finiteness of the inputs is used.
  The frames: each program runs to its end without a fault and leaves its four arguments as they were
  (the kernel's two instances from the same text; the reference's from its run). The idealized
  kernel is the printed kernel's own text (no rewrite was applied), so the preservation claim is empty.
-/
import proofs.«175682_j70781061038447_1_alg».proof.Defs
import proofs.«175682_j70781061038447_1_alg».proof.Proof.Gen.Kernel
import proofs.«175682_j70781061038447_1_alg».proof.Proof.Gen.KernelIdeal
import proofs.«175682_j70781061038447_1_alg».proof.Proof.Gen.ReferenceIdeal
import proofs.«175682_j70781061038447_1_alg».proof.Proof.Gen.Pre_finite_inputs
import proofs.«175682_j70781061038447_1_alg».proof.Proof.K.Frame
import proofs.«175682_j70781061038447_1_alg».proof.Proof.KI.Value
import proofs.«175682_j70781061038447_1_alg».proof.Proof.Ref.Run
import proofs.«175682_j70781061038447_1_alg».proof.Proof.Ref.Read
import Idealize.ShloMosaic.Adequacy
import Idealize.ShloMosaic.Init

noncomputable section

namespace Cert.Proof

open Idealize.ShloMosaic Idealize.ShloMosaic.TcCoe Idealize.SL.Sem

/-- The reference's gathered entries are the specification's array: entry `n` is the dot product of rows
    `hi n` and `lo n`, and a dot product is symmetric. -/
theorem Z_eq_pairs (a0 a1 a2 a3 : FVec Ideal Cert.ReferenceIdeal.S1x16777216 .f32) :
    Cert.ReferenceIdeal.Hand.Z (F := Ideal) a0 a1 a2 a3 = Cert.Spec.pairs a0 a1 a2 a3 := by
  funext j
  rw [Cert.ReferenceIdeal.Hand.Z_apply]
  exact Cert.Spec.dot_comm _ _

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.run (F := Ideal) m ρ)

/-- Both idealized programs end with the first argument row followed by the six pairwise dot products. -/
theorem algebraic : Cert.algebraic_KernelIdeal_ReferenceIdeal := by
  intro m ρ m' ρ' _ hagree
  refine ⟨fun c => concatenate Cert.KernelIdeal.S1x16777222 1
      [⟨Cert.KernelIdeal.S1x16777216, (m ((c.tc : Thread Cert.KernelIdeal.nD Cert.KernelIdeal.τ).loc Cert.KernelIdeal.main_arg0))⟩,
        ⟨Cert.KernelIdeal.S1x6, Cert.Spec.pairs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))⟩]
      Cert.KernelIdeal.Gen.concatenates_S1x16777216_S1x6_S1x16777222_d1, ?_, ?_⟩
  · refine (θ_run Cert.KernelIdeal.defs _ _).mono (fun _ h c => ⟨(h c).1.trans ?_, (h c).2⟩)
      (Cert.KernelIdeal.Hand.run_value (F := Ideal) m ρ)
    rw [Cert.KernelIdeal.Hand.six_eq]
  · refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2.1, (hagree c).2.2.2, Z_eq_pairs]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
